-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1000000 : Shape := ⟨2, ![2, 1000000]⟩
abbrev S5000x64 : Shape := ⟨2, ![5000, 64]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg8
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg9
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : IVec S100000 32) (main_arg1 : IVec S2x1000000 32) (main_arg2 : IVec S100000 32) (main_arg3 : FVec F S5000x64 .f32) (main_arg4 : FVec F S64x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S5000x64 .f32 := Host.absf main_arg3
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000 : Shape := ⟨1, ![100000]⟩
abbrev S2x1000000 : Shape := ⟨2, ![2, 1000000]⟩
abbrev S5000x64 : Shape := ⟨2, ![5000, 64]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩
abbrev S100000x1 : Shape := ⟨2, ![100000, 1]⟩
abbrev S100000x64 : Shape := ⟨2, ![100000, 64]⟩
abbrev S1x1000000 : Shape := ⟨2, ![1, 1000000]⟩
abbrev S1000000 : Shape := ⟨1, ![1000000]⟩
abbrev S1100000 : Shape := ⟨1, ![1100000]⟩
abbrev S1100000x1 : Shape := ⟨2, ![1100000, 1]⟩
abbrev S100000x128 : Shape := ⟨2, ![100000, 128]⟩
abbrev S2000x64 : Shape := ⟨2, ![2000, 64]⟩
abbrev S2000x128 : Shape := ⟨2, ![2000, 128]⟩
abbrev S1100000x128 : Shape := ⟨2, ![1100000, 128]⟩
abbrev S1x128 : Shape := ⟨2, ![1, 128]⟩
abbrev S8192 : Shape := ⟨1, ![8192]⟩
abbrev S8192x128 : Shape := ⟨2, ![8192, 128]⟩
abbrev S8192x1 : Shape := ⟨2, ![8192, 1]⟩
abbrev S1x16 : Shape := ⟨2, ![1, 16]⟩
abbrev S8192x16 : Shape := ⟨2, ![8192, 16]⟩

abbrev nBuf : Space → Nat
  | .hbm => 110
  | .vmem => 24
  | .smem => 0
  | _ => 0

abbrev bufTy : (tb : Table) → Fin (tcTables nBuf tb) → BufTy
  | .hbm, ⟨0, _⟩ => ⟨S100000, .i32⟩
  | .hbm, ⟨1, _⟩ => ⟨S2x1000000, .i32⟩
  | .hbm, ⟨2, _⟩ => ⟨S100000, .i32⟩
  | .hbm, ⟨3, _⟩ => ⟨S5000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x64, .f32⟩
  | .hbm, ⟨19, _⟩ => ⟨S100000, .i32⟩
  | .hbm, ⟨20, _⟩ => ⟨S1x1000000, .i32⟩
  | .hbm, ⟨21, _⟩ => ⟨S1000000, .i32⟩
  | .hbm, ⟨22, _⟩ => ⟨S1100000, .i32⟩
  | .hbm, ⟨23, _⟩ => ⟨S1x1000000, .i32⟩
  | .hbm, ⟨24, _⟩ => ⟨S1000000, .i32⟩
  | .hbm, ⟨25, _⟩ => ⟨S1100000, .i32⟩
  | .hbm, ⟨26, _⟩ => ⟨S_, .f32⟩
  | .hbm, ⟨27, _⟩ => ⟨S1100000, .f32⟩
  | .hbm, ⟨28, _⟩ => ⟨S_, .f32⟩
  | .hbm, ⟨29, _⟩ => ⟨S100000, .f32⟩
  | .hbm, ⟨30, _⟩ => ⟨S1100000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000, .f32⟩
  | .hbm, ⟨54, _⟩ => ⟨S1100000, .f32⟩
  | .hbm, ⟨55, _⟩ => ⟨S1100000x1, .f32⟩
  | .hbm, ⟨56, _⟩ => ⟨S100000x128, .f32⟩
  | .hbm, ⟨57, _⟩ => ⟨S_, .i32⟩
  | .hbm, ⟨58, _⟩ => ⟨S1100000, .i32⟩
  | .hbm, ⟨59, _⟩ => ⟨S1100000, .i1⟩
  | .hbm, ⟨60, _⟩ => ⟨S_, .i32⟩
  | .hbm, ⟨61, _⟩ => ⟨S1100000, .i32⟩
  | .hbm, ⟨62, _⟩ => ⟨S1100000, .i32⟩
  | .hbm, ⟨63, _⟩ => ⟨S1100000, .i32⟩
  | .hbm, ⟨64, _⟩ => ⟨S1100000x1, .i32⟩
  | .hbm, ⟨65, _⟩ => ⟨S1100000x128, .f32⟩
  | .hbm, ⟨66, _⟩ => ⟨S1100000x128, .f32⟩
  | .hbm, ⟨67, _⟩ => ⟨S1100000x128, .f32⟩
  | .hbm, ⟨68, _⟩ => ⟨S_, .f32⟩
  | .hbm, ⟨69, _⟩ => ⟨S100000x128, .f32⟩
  | .hbm, ⟨70, _⟩ => ⟨S1100000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1100000, .i32⟩
  | .hbm, ⟨77, _⟩ => ⟨S1100000, .i1⟩
  | .hbm, ⟨78, _⟩ => ⟨S_, .i32⟩
  | .hbm, ⟨79, _⟩ => ⟨S1100000, .i32⟩
  | .hbm, ⟨80, _⟩ => ⟨S1100000, .i32⟩
  | .hbm, ⟨81, _⟩ => ⟨S1100000, .i32⟩
  | .hbm, ⟨82, _⟩ => ⟨S1100000x1, .i32⟩
  | .hbm, ⟨83, _⟩ => ⟨S1100000x128, .f32⟩
  | .hbm, ⟨84, _⟩ => ⟨S1100000x128, .f32⟩
  | .hbm, ⟨85, _⟩ => ⟨S1100000x128, .f32⟩
  | .hbm, ⟨86, _⟩ => ⟨S_, .f32⟩
  | .hbm, ⟨87, _⟩ => ⟨S100000x128, .f32⟩
  | .hbm, ⟨88, _⟩ => ⟨S1100000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S8192, .f32⟩
  | .hbm, ⟨96, _⟩ => ⟨S100000x1, .i32⟩
  | .hbm, ⟨97, _⟩ => ⟨S8192, .f32⟩
  | .hbm, ⟨98, _⟩ => ⟨S_, .f32⟩
  | .hbm, ⟨99, _⟩ => ⟨S8192x128, .f32⟩
  | .hbm, ⟨100, _⟩ => ⟨S100000x1, .i32⟩
  | .hbm, ⟨101, _⟩ => ⟨S8192x128, .f32⟩
  | .hbm, ⟨102, _⟩ => ⟨S_, .f32⟩
  | .hbm, ⟨103, _⟩ => ⟨S8192, .f32⟩
  | .hbm, ⟨104, _⟩ => ⟨S8192, .f32⟩
  | .hbm, ⟨105, _⟩ => ⟨S8192x1, .f32⟩
  | .hbm, ⟨106, _⟩ => ⟨S8192x128, .f32⟩
  | .hbm, ⟨107, _⟩ => ⟨S8192x128, .f32⟩
  | .hbm, ⟨108, _⟩ => ⟨S1x16, .f32⟩
  | .hbm, ⟨109, _⟩ => ⟨S8192x16, .f32⟩
  | .local _ .vmem, ⟨0, _⟩ => ⟨S2000x64, .f32⟩
  | .local _ .vmem, ⟨1, _⟩ => ⟨S2000x64, .f32⟩
  | .local _ .vmem, ⟨2, _⟩ => ⟨S64x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S8192x128, .f32⟩
  | .local _ .vmem, ⟨21, _⟩ => ⟨S128x16, .f32⟩
  | .local _ .vmem, ⟨22, _⟩ => ⟨S1x16, .f32⟩
  | .local _ .vmem, ⟨23, _⟩ => ⟨S8192x16, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S8192x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8192x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S1100000_S1100000x1_0 : S1100000.BroadcastsInDim S1100000x1 (![0] : Fin 1 → Fin S1100000x1.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  bcast_S_S8192 : S_.BroadcastsInDim S8192 (![] : Fin 0 → Fin S8192.rank)
  bcast_S_S8192x128 : S_.BroadcastsInDim S8192x128 (![] : Fin 0 → Fin S8192x128.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  shapeCasts_S16_S1x16 : S16.ShapeCasts S1x16
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S8192x16_S8192x16_0_0 : ∀ a, (![0, 0] : Fin 2 → Nat) a + S8192x16.size a ≤ S8192x16.size a
  h_S8192x16 : 0 < S8192x16.numel
  gather_S5000x64_S100000x1_S100000x64_1_0_n_n_0_1_164_wf : GatherDims.WF S5000x64 S100000x1 S100000x64 [1] [0] [] [0] [] 1 ![1, 64]
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S2000x64_S64x128_S2000x128_1_0_0_1_n_n_wf : DotDims.WF S2000x64 S64x128 S2000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S2000x128_S128x128_S2000x128_1_0_0_1_n_n_wf : DotDims.WF S2000x128 S128x128 S2000x128 [1] [0] [0] [1] [] []
  scatter_S8192_S100000x1_S100000_n_0_0_1_wf : ScatterDims.WF S8192 S100000x1 S100000 [] [0] [0] 1
  scatter_S8192x128_S100000x1_S100000x128_1_0_0_1_wf : ScatterDims.WF S8192x128 S100000x1 S100000x128 [1] [0] [0] 1
  dot_S8192x128_S128x16_S8192x16_1_0_0_1_n_n_wf : DotDims.WF S8192x128 S128x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S8192x128.size a
  hwx4_0 : ∀ i : grid4.Coords, EltTy.bits .f32 = 32 ∨ (Rect.block (s := S8192x128) S8192x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8192x16.size a ≤ S8192x16.size a
  hwx4_3 : ∀ i : grid4.Coords, EltTy.bits .f32 = 32 ∨ (Rect.block (s := S8192x16) S8192x16.size (cc4_transform_3 i) (hinb4_3 i)).WholeWords (EltTy.packing .f32)

variable [Facts₀]

def gather_S5000x64_S100000x1_S100000x64_1_0_n_n_0_1_164 : GatherDims S5000x64 S100000x1 S100000x64 where
  offsetDims := [1]
  collapsedSliceDims := [0]
  operandBatchingDims := []
  startIndicesBatchingDims := []
  startIndexMap := [0]
  indexVectorDim := 1
  sliceSizes := ![1, 64]
  wf := gather_S5000x64_S100000x1_S100000x64_1_0_n_n_0_1_164_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf
def scatter_S8192x128_S100000x1_S100000x128_1_0_0_1 : ScatterDims S8192x128 S100000x1 S100000x128 where
  updateWindowDims := [1]
  insertedWindowDims := [0]
  scatterDimsToOperandDims := [0]
  indexVectorDim := 1
  wf := scatter_S8192x128_S100000x1_S100000x128_1_0_0_1_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S8192x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v80) S8192x16.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000 : Shape := ⟨1, ![100000]⟩
abbrev S2x1000000 : Shape := ⟨2, ![2, 1000000]⟩
abbrev S5000x64 : Shape := ⟨2, ![5000, 64]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩
abbrev S100000x1 : Shape := ⟨2, ![100000, 1]⟩
abbrev S100000x64 : Shape := ⟨2, ![100000, 64]⟩
abbrev S1x1000000 : Shape := ⟨2, ![1, 1000000]⟩
abbrev S1000000 : Shape := ⟨1, ![1000000]⟩
abbrev S1100000 : Shape := ⟨1, ![1100000]⟩
abbrev S1100000x1 : Shape := ⟨2, ![1100000, 1]⟩
abbrev S100000x128 : Shape := ⟨2, ![100000, 128]⟩
abbrev S1100000x128 : Shape := ⟨2, ![1100000, 128]⟩
abbrev S1x128 : Shape := ⟨2, ![1, 128]⟩
abbrev S8192 : Shape := ⟨1, ![8192]⟩
abbrev S8192x128 : Shape := ⟨2, ![8192, 128]⟩
abbrev S8192x1 : Shape := ⟨2, ![8192, 1]⟩
abbrev S8192x16 : Shape := ⟨2, ![8192, 16]⟩
abbrev S1x16 : Shape := ⟨2, ![1, 16]⟩

abbrev nBuf : Space → Nat
  | .hbm => 120
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1000000, .i32⟩
  | .hbm, ⟨2, _⟩ => ⟨S100000, .i32⟩
  | .hbm, ⟨3, _⟩ => ⟨S5000x64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S_, .i32⟩
  | .hbm, ⟨11, _⟩ => ⟨S100000, .i32⟩
  | .hbm, ⟨12, _⟩ => ⟨S100000, .i1⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S100000, .i32⟩
  | .hbm, ⟨17, _⟩ => ⟨S100000x1, .i32⟩
  | .hbm, ⟨18, _⟩ => ⟨S100000x64, .f32⟩
  | .hbm, ⟨19, _⟩ => ⟨S100000, .i32⟩
  | .hbm, ⟨20, _⟩ => ⟨S1x1000000, .i32⟩
  | .hbm, ⟨21, _⟩ => ⟨S1000000, .i32⟩
  | .hbm, ⟨22, _⟩ => ⟨S1100000, .i32⟩
  | .hbm, ⟨23, _⟩ => ⟨S1x1000000, .i32⟩
  | .hbm, ⟨24, _⟩ => ⟨S1000000, .i32⟩
  | .hbm, ⟨25, _⟩ => ⟨S1100000, .i32⟩
  | .hbm, ⟨26, _⟩ => ⟨S_, .f32⟩
  | .hbm, ⟨27, _⟩ => ⟨S1100000, .f32⟩
  | .hbm, ⟨28, _⟩ => ⟨S_, .f32⟩
  | .hbm, ⟨29, _⟩ => ⟨S100000, .f32⟩
  | .hbm, ⟨30, _⟩ => ⟨S1100000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1100000, .i32⟩
  | .hbm, ⟨38, _⟩ => ⟨S1100000, .i1⟩
  | .hbm, ⟨39, _⟩ => ⟨S_, .i32⟩
  | .hbm, ⟨40, _⟩ => ⟨S1100000, .i32⟩
  | .hbm, ⟨41, _⟩ => ⟨S1100000, .i32⟩
  | .hbm, ⟨42, _⟩ => ⟨S1100000, .i32⟩
  | .hbm, ⟨43, _⟩ => ⟨S1100000x1, .i32⟩
  | .hbm, ⟨44, _⟩ => ⟨S1100000, .f32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000, .f32⟩
  | .hbm, ⟨54, _⟩ => ⟨S1100000, .f32⟩
  | .hbm, ⟨55, _⟩ => ⟨S1100000x1, .f32⟩
  | .hbm, ⟨56, _⟩ => ⟨S100000x128, .f32⟩
  | .hbm, ⟨57, _⟩ => ⟨S_, .i32⟩
  | .hbm, ⟨58, _⟩ => ⟨S1100000, .i32⟩
  | .hbm, ⟨59, _⟩ => ⟨S1100000, .i1⟩
  | .hbm, ⟨60, _⟩ => ⟨S_, .i32⟩
  | .hbm, ⟨61, _⟩ => ⟨S1100000, .i32⟩
  | .hbm, ⟨62, _⟩ => ⟨S1100000, .i32⟩
  | .hbm, ⟨63, _⟩ => ⟨S1100000, .i32⟩
  | .hbm, ⟨64, _⟩ => ⟨S1100000x1, .i32⟩
  | .hbm, ⟨65, _⟩ => ⟨S1100000x128, .f32⟩
  | .hbm, ⟨66, _⟩ => ⟨S1100000x128, .f32⟩
  | .hbm, ⟨67, _⟩ => ⟨S1100000x128, .f32⟩
  | .hbm, ⟨68, _⟩ => ⟨S_, .f32⟩
  | .hbm, ⟨69, _⟩ => ⟨S100000x128, .f32⟩
  | .hbm, ⟨70, _⟩ => ⟨S1100000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1100000, .i32⟩
  | .hbm, ⟨81, _⟩ => ⟨S1100000, .i1⟩
  | .hbm, ⟨82, _⟩ => ⟨S_, .i32⟩
  | .hbm, ⟨83, _⟩ => ⟨S1100000, .i32⟩
  | .hbm, ⟨84, _⟩ => ⟨S1100000, .i32⟩
  | .hbm, ⟨85, _⟩ => ⟨S1100000, .i32⟩
  | .hbm, ⟨86, _⟩ => ⟨S1100000x1, .i32⟩
  | .hbm, ⟨87, _⟩ => ⟨S1100000x128, .f32⟩
  | .hbm, ⟨88, _⟩ => ⟨S1100000x128, .f32⟩
  | .hbm, ⟨89, _⟩ => ⟨S1100000x128, .f32⟩
  | .hbm, ⟨90, _⟩ => ⟨S_, .f32⟩
  | .hbm, ⟨91, _⟩ => ⟨S100000x128, .f32⟩
  | .hbm, ⟨92, _⟩ => ⟨S1100000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S8192, .f32⟩
  | .hbm, ⟨104, _⟩ => ⟨S100000x1, .i32⟩
  | .hbm, ⟨105, _⟩ => ⟨S8192, .f32⟩
  | .hbm, ⟨106, _⟩ => ⟨S_, .f32⟩
  | .hbm, ⟨107, _⟩ => ⟨S8192x128, .f32⟩
  | .hbm, ⟨108, _⟩ => ⟨S100000x1, .i32⟩
  | .hbm, ⟨109, _⟩ => ⟨S8192x128, .f32⟩
  | .hbm, ⟨110, _⟩ => ⟨S_, .f32⟩
  | .hbm, ⟨111, _⟩ => ⟨S8192, .f32⟩
  | .hbm, ⟨112, _⟩ => ⟨S8192, .f32⟩
  | .hbm, ⟨113, _⟩ => ⟨S8192x1, .f32⟩
  | .hbm, ⟨114, _⟩ => ⟨S8192x128, .f32⟩
  | .hbm, ⟨115, _⟩ => ⟨S8192x128, .f32⟩
  | .hbm, ⟨116, _⟩ => ⟨S8192x16, .f32⟩
  | .hbm, ⟨117, _⟩ => ⟨S1x16, .f32⟩
  | .hbm, ⟨118, _⟩ => ⟨S8192x16, .f32⟩
  | .hbm, ⟨119, _⟩ => ⟨S8192x16, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_call1_cst : Ref sig .tc := ⟨.hbm, 97, rfl⟩
abbrev main_call1_v0 : Ref sig .tc := ⟨.hbm, 98, rfl⟩
abbrev main_v70 : Ref sig .tc := ⟨.hbm, 99, rfl⟩
abbrev main_cst_13 : Ref sig .tc := ⟨.hbm, 100, rfl⟩
abbrev main_v71 : Ref sig .tc := ⟨.hbm, 101, rfl⟩
abbrev main_cst_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S8192 : S_.BroadcastsInDim S8192 (![] : Fin 0 → Fin S8192.rank)
  bcast_S_S8192x128 : S_.BroadcastsInDim S8192x128 (![] : Fin 0 → Fin S8192x128.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  gather_S5000x64_S100000x1_S100000x64_1_0_n_n_0_1_164_wf : GatherDims.WF S5000x64 S100000x1 S100000x64 [1] [0] [] [0] [] 1 ![1, 64]
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x128_S100000x128_1_0_0_1_n_n_wf : DotDims.WF S100000x128 S128x128 S100000x128 [1] [0] [0] [1] [] []
  scatter_S8192_S100000x1_S100000_n_0_0_1_wf : ScatterDims.WF S8192 S100000x1 S100000 [] [0] [0] 1
  scatter_S8192x128_S100000x1_S100000x128_1_0_0_1_wf : ScatterDims.WF S8192x128 S100000x1 S100000x128 [1] [0] [0] 1
  dot_S8192x128_S128x16_S8192x16_1_0_0_1_n_n_wf : DotDims.WF S8192x128 S128x16 S8192x16 [1] [0] [0] [1] [] []

variable [Facts₀]

def gather_S5000x64_S100000x1_S100000x64_1_0_n_n_0_1_164 : GatherDims S5000x64 S100000x1 S100000x64 where
  offsetDims := [1]
  collapsedSliceDims := [0]
  operandBatchingDims := []
  startIndicesBatchingDims := []
  startIndexMap := [0]
  indexVectorDim := 1
  sliceSizes := ![1, 64]
  wf := gather_S5000x64_S100000x1_S100000x64_1_0_n_n_0_1_164_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf
def scatter_S8192x128_S100000x1_S100000x128_1_0_0_1 : ScatterDims S8192x128 S100000x1 S100000x128 where
  updateWindowDims := [1]
  insertedWindowDims := [0]
  scatterDimsToOperandDims := [0]
  indexVectorDim := 1
  wf := scatter_S8192x128_S100000x1_S100000x128_1_0_0_1_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

class Facts : Prop extends Facts₀ where

variable [Facts]
-- ==== Proof.HostStages.lean ====
/-
  The host stretches of the kernel program, read in the reference's terms.

  Between its five regions the kernel program runs the same host operations as the reference: the embedding gather,
  the edge lists with self loops, the degree normalisation, and per layer the gather of rows, the scaling and the
  scatter-add of messages; after the second layer the mean pooling. The reference's value is a tower of stages, one
  per operation, each a function of the program's arguments. Here every buffer a region reads is shown to hold, at
  the boundary where the region is entered, the reference's stage of the same name-by-position, PROVIDED the
  preceding region's output holds the reference's stage it stands for (a hypothesis of the lemma). Only operations
  are matched against operations: no arithmetic is done here.

  The one-row biases: the kernel reshapes a bias of n entries to one row of n; entry (0, q) of the row is entry q.
-/
import proofs.«135717_j88648124990825_1_alg».proof.Proof.Gen.KernelIdeal.Frame
import proofs.«135717_j88648124990825_1_alg».proof.Proof.Gen.ReferenceIdeal.Read
import Idealize.ShloMosaic.Lib.StableHlo.Run
import Idealize.ShloMosaic.Lib.ValueIdx
import Idealize.ShloMosaic.Lib.ValueLayout

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments as launched, at their literal types -/

abbrev a0 (c : Dev nD) : (⟨S100000, .i32⟩ : BufTy).Contents (Elt Ideal) := m ((c.tc : Thread nD τ).loc main_arg0)
abbrev a1 (c : Dev nD) : (⟨S2x1000000, .i32⟩ : BufTy).Contents (Elt Ideal) := m ((c.tc : Thread nD τ).loc main_arg1)
abbrev a2 (c : Dev nD) : (⟨S100000, .i32⟩ : BufTy).Contents (Elt Ideal) := m ((c.tc : Thread nD τ).loc main_arg2)
abbrev a3 (c : Dev nD) : (⟨S5000x64, .f32⟩ : BufTy).Contents (Elt Ideal) := m ((c.tc : Thread nD τ).loc main_arg3)
abbrev a4 (c : Dev nD) : (⟨S64x128, .f32⟩ : BufTy).Contents (Elt Ideal) := m ((c.tc : Thread nD τ).loc main_arg4)
abbrev a5 (c : Dev nD) : (⟨S128, .f32⟩ : BufTy).Contents (Elt Ideal) := m ((c.tc : Thread nD τ).loc main_arg5)
abbrev a6 (c : Dev nD) : (⟨S128x128, .f32⟩ : BufTy).Contents (Elt Ideal) := m ((c.tc : Thread nD τ).loc main_arg6)
abbrev a7 (c : Dev nD) : (⟨S128, .f32⟩ : BufTy).Contents (Elt Ideal) := m ((c.tc : Thread nD τ).loc main_arg7)
abbrev a8 (c : Dev nD) : (⟨S128x16, .f32⟩ : BufTy).Contents (Elt Ideal) := m ((c.tc : Thread nD τ).loc main_arg8)
abbrev a9 (c : Dev nD) : (⟨S16, .f32⟩ : BufTy).Contents (Elt Ideal) := m ((c.tc : Thread nD τ).loc main_arg9)

/-! ## Before region 0: the gathered rows, the two edge lists and the edge weights -/

/-- The embedding rows gathered at the node ids. -/
theorem W1_v6 (c : Dev nD) :
    W1 m ρ c (Proc.devRef .tc main_v6) = Cert.ReferenceIdeal.Read.val_main_v6 (F := Ideal) (a0 m c) (a3 m c) := by
  show StableHlo.after hostOps0 (W0 m ρ c) (Proc.devRef .tc main_v6) = _
  unfold hostOps0
  after_results_simp
  rfl

/-- The sources: the first row of the edge index, then every node once. -/
theorem W1_v10 (c : Dev nD) :
    W1 m ρ c (Proc.devRef .tc main_v10) = Cert.ReferenceIdeal.Read.val_main_v10 (F := Ideal) (a1 m c) := by
  show StableHlo.after hostOps0 (W0 m ρ c) (Proc.devRef .tc main_v10) = _
  unfold hostOps0
  after_results_simp
  rfl

/-- The destinations: the second row of the edge index, then every node once. -/
theorem W1_v13 (c : Dev nD) :
    W1 m ρ c (Proc.devRef .tc main_v13) = Cert.ReferenceIdeal.Read.val_main_v13 (F := Ideal) (a1 m c) := by
  show StableHlo.after hostOps0 (W0 m ρ c) (Proc.devRef .tc main_v13) = _
  unfold hostOps0
  after_results_simp
  rfl

/-- The edge weights, one column: the product of the two endpoints' inverse square-root degrees. -/
theorem W1_v36 (c : Dev nD) :
    W1 m ρ c (Proc.devRef .tc main_v36) = Cert.ReferenceIdeal.Read.val_main_v36 (F := Ideal) (a1 m c) := by
  show StableHlo.after hostOps0 (W0 m ρ c) (Proc.devRef .tc main_v36) = _
  unfold hostOps0
  after_results_simp
  rfl

/-- The first layer's weights are as launched when region 0 is entered. -/
theorem W1_arg4 (c : Dev nD) : W1 m ρ c (Proc.devRef .tc main_arg4) = a4 m c := by
  show StableHlo.after hostOps0 (W0 m ρ c) (Proc.devRef .tc main_arg4) = _
  unfold hostOps0
  after_results_simp

/-- No operation before region 0 writes the first layer's bias. -/
theorem W1_arg5 (c : Dev nD) : W1 m ρ c (Proc.devRef .tc main_arg5) = a5 m c := by
  show StableHlo.after hostOps0 (W0 m ρ c) (Proc.devRef .tc main_arg5) = _
  unfold hostOps0
  after_results_simp

/-! ## Region 0 writes only its output: the edge lists and weights stand -/

theorem W2_v10 (c : Dev nD) : W2 m ρ c (Proc.devRef .tc main_v10) = Cert.ReferenceIdeal.Read.val_main_v10 (F := Ideal) (a1 m c) :=
  (W2_of_ne m ρ c main_v10 (by decide)).trans (W1_v10 m ρ c)
theorem W2_v13 (c : Dev nD) : W2 m ρ c (Proc.devRef .tc main_v13) = Cert.ReferenceIdeal.Read.val_main_v13 (F := Ideal) (a1 m c) :=
  (W2_of_ne m ρ c main_v13 (by decide)).trans (W1_v13 m ρ c)
theorem W2_v36 (c : Dev nD) : W2 m ρ c (Proc.devRef .tc main_v36) = Cert.ReferenceIdeal.Read.val_main_v36 (F := Ideal) (a1 m c) :=
  (W2_of_ne m ρ c main_v36 (by decide)).trans (W1_v36 m ρ c)
theorem W2_arg5 (c : Dev nD) : W2 m ρ c (Proc.devRef .tc main_arg5) = a5 m c :=
  (W2_of_ne m ρ c main_arg5 (by decide)).trans (W1_arg5 m ρ c)

/-! ## Between regions 0 and 1: the first layer's messages gathered, scaled and added up -/

/-- If region 0 left the reference's first product, the aggregated messages are the reference's. -/
theorem W3_v49 (c : Dev nD)
    (h37 : W2 m ρ c (Proc.devRef .tc main_v37) = Cert.ReferenceIdeal.Read.val_main_v37 (F := Ideal) (a0 m c) (a3 m c) (a4 m c)) :
    W3 m ρ c (Proc.devRef .tc main_v49) = Cert.ReferenceIdeal.Read.val_main_v49 (F := Ideal) (a0 m c) (a1 m c) (a3 m c) (a4 m c) := by
  show StableHlo.after hostOps1 (W2 m ρ c) (Proc.devRef .tc main_v49) = _
  unfold hostOps1
  after_results_simp
  rw [h37, W2_v10 m ρ c, W2_v13 m ρ c, W2_v36 m ρ c]
  rfl

/-- The first layer's bias laid out as one row. -/
theorem W3_v50 (c : Dev nD) :
    W3 m ρ c (Proc.devRef .tc main_v50) = shapeCast S1x128 (a5 m c) shapeCasts_S128_S1x128 := by
  show StableHlo.after hostOps1 (W2 m ρ c) (Proc.devRef .tc main_v50) = _
  unfold hostOps1
  after_results_simp
  rw [W2_arg5 m ρ c]
  rfl

/-! ## Every buffer a later stretch reads that no region and no later operation writes, carried forward

Region K writes only its own output array, and a host stretch writes only its own operations' results; so the edge
lists, the edge weights and the arguments read the same at every later boundary. -/

/-- No operation before region 0 writes argument 2. -/
theorem W1_arg2 (c : Dev nD) : W1 m ρ c (Proc.devRef .tc main_arg2) = a2 m c := by
  show StableHlo.after hostOps0 (W0 m ρ c) (Proc.devRef .tc main_arg2) = _
  unfold hostOps0
  after_results_simp

/-- No operation before region 0 writes argument 6. -/
theorem W1_arg6 (c : Dev nD) : W1 m ρ c (Proc.devRef .tc main_arg6) = a6 m c := by
  show StableHlo.after hostOps0 (W0 m ρ c) (Proc.devRef .tc main_arg6) = _
  unfold hostOps0
  after_results_simp

/-- No operation before region 0 writes argument 7. -/
theorem W1_arg7 (c : Dev nD) : W1 m ρ c (Proc.devRef .tc main_arg7) = a7 m c := by
  show StableHlo.after hostOps0 (W0 m ρ c) (Proc.devRef .tc main_arg7) = _
  unfold hostOps0
  after_results_simp

/-- No operation before region 0 writes argument 8. -/
theorem W1_arg8 (c : Dev nD) : W1 m ρ c (Proc.devRef .tc main_arg8) = a8 m c := by
  show StableHlo.after hostOps0 (W0 m ρ c) (Proc.devRef .tc main_arg8) = _
  unfold hostOps0
  after_results_simp

/-- No operation before region 0 writes argument 9. -/
theorem W1_arg9 (c : Dev nD) : W1 m ρ c (Proc.devRef .tc main_arg9) = a9 m c := by
  show StableHlo.after hostOps0 (W0 m ρ c) (Proc.devRef .tc main_arg9) = _
  unfold hostOps0
  after_results_simp

theorem W3_keeps_v10 (c : Dev nD) : W3 m ρ c (Proc.devRef .tc main_v10) = W2 m ρ c (Proc.devRef .tc main_v10) := by
  show StableHlo.after hostOps1 (W2 m ρ c) (Proc.devRef .tc main_v10) = _
  unfold hostOps1
  after_results_simp
theorem W3_keeps_v13 (c : Dev nD) : W3 m ρ c (Proc.devRef .tc main_v13) = W2 m ρ c (Proc.devRef .tc main_v13) := by
  show StableHlo.after hostOps1 (W2 m ρ c) (Proc.devRef .tc main_v13) = _
  unfold hostOps1
  after_results_simp
theorem W3_keeps_v36 (c : Dev nD) : W3 m ρ c (Proc.devRef .tc main_v36) = W2 m ρ c (Proc.devRef .tc main_v36) := by
  show StableHlo.after hostOps1 (W2 m ρ c) (Proc.devRef .tc main_v36) = _
  unfold hostOps1
  after_results_simp
theorem W3_keeps_arg2 (c : Dev nD) : W3 m ρ c (Proc.devRef .tc main_arg2) = W2 m ρ c (Proc.devRef .tc main_arg2) := by
  show StableHlo.after hostOps1 (W2 m ρ c) (Proc.devRef .tc main_arg2) = _
  unfold hostOps1
  after_results_simp
theorem W3_keeps_arg6 (c : Dev nD) : W3 m ρ c (Proc.devRef .tc main_arg6) = W2 m ρ c (Proc.devRef .tc main_arg6) := by
  show StableHlo.after hostOps1 (W2 m ρ c) (Proc.devRef .tc main_arg6) = _
  unfold hostOps1
  after_results_simp
theorem W3_keeps_arg7 (c : Dev nD) : W3 m ρ c (Proc.devRef .tc main_arg7) = W2 m ρ c (Proc.devRef .tc main_arg7) := by
  show StableHlo.after hostOps1 (W2 m ρ c) (Proc.devRef .tc main_arg7) = _
  unfold hostOps1
  after_results_simp
theorem W3_keeps_arg8 (c : Dev nD) : W3 m ρ c (Proc.devRef .tc main_arg8) = W2 m ρ c (Proc.devRef .tc main_arg8) := by
  show StableHlo.after hostOps1 (W2 m ρ c) (Proc.devRef .tc main_arg8) = _
  unfold hostOps1
  after_results_simp
theorem W3_keeps_arg9 (c : Dev nD) : W3 m ρ c (Proc.devRef .tc main_arg9) = W2 m ρ c (Proc.devRef .tc main_arg9) := by
  show StableHlo.after hostOps1 (W2 m ρ c) (Proc.devRef .tc main_arg9) = _
  unfold hostOps1
  after_results_simp

/-- `main_v10` when region 2 has been left: regions 1 and 2 and the stretch between regions 0 and 1 leave it alone. -/
theorem W5_v10 (c : Dev nD) : W5 m ρ c (Proc.devRef .tc main_v10) = Cert.ReferenceIdeal.Read.val_main_v10 (F := Ideal) (a1 m c) :=
  (W5_of_ne m ρ c main_v10 (by decide)).trans ((W4_of_ne m ρ c main_v10 (by decide)).trans ((W3_keeps_v10 m ρ c).trans (W2_v10 m ρ c)))
/-- `main_v13` when region 2 has been left: regions 1 and 2 and the stretch between regions 0 and 1 leave it alone. -/
theorem W5_v13 (c : Dev nD) : W5 m ρ c (Proc.devRef .tc main_v13) = Cert.ReferenceIdeal.Read.val_main_v13 (F := Ideal) (a1 m c) :=
  (W5_of_ne m ρ c main_v13 (by decide)).trans ((W4_of_ne m ρ c main_v13 (by decide)).trans ((W3_keeps_v13 m ρ c).trans (W2_v13 m ρ c)))
/-- `main_v36` when region 2 has been left: regions 1 and 2 and the stretch between regions 0 and 1 leave it alone. -/
theorem W5_v36 (c : Dev nD) : W5 m ρ c (Proc.devRef .tc main_v36) = Cert.ReferenceIdeal.Read.val_main_v36 (F := Ideal) (a1 m c) :=
  (W5_of_ne m ρ c main_v36 (by decide)).trans ((W4_of_ne m ρ c main_v36 (by decide)).trans ((W3_keeps_v36 m ρ c).trans (W2_v36 m ρ c)))
/-- `main_arg2` when region 2 has been left: regions 1 and 2 and the stretch between regions 0 and 1 leave it alone. -/
theorem W5_arg2 (c : Dev nD) : W5 m ρ c (Proc.devRef .tc main_arg2) = a2 m c :=
  (W5_of_ne m ρ c main_arg2 (by decide)).trans ((W4_of_ne m ρ c main_arg2 (by decide)).trans ((W3_keeps_arg2 m ρ c).trans ((W2_of_ne m ρ c main_arg2 (by decide)).trans (W1_arg2 m ρ c))))
/-- `main_arg7` when region 2 has been left: regions 1 and 2 and the stretch between regions 0 and 1 leave it alone. -/
theorem W5_arg7 (c : Dev nD) : W5 m ρ c (Proc.devRef .tc main_arg7) = a7 m c :=
  (W5_of_ne m ρ c main_arg7 (by decide)).trans ((W4_of_ne m ρ c main_arg7 (by decide)).trans ((W3_keeps_arg7 m ρ c).trans ((W2_of_ne m ρ c main_arg7 (by decide)).trans (W1_arg7 m ρ c))))
/-- `main_arg8` when region 2 has been left: regions 1 and 2 and the stretch between regions 0 and 1 leave it alone. -/
theorem W5_arg8 (c : Dev nD) : W5 m ρ c (Proc.devRef .tc main_arg8) = a8 m c :=
  (W5_of_ne m ρ c main_arg8 (by decide)).trans ((W4_of_ne m ρ c main_arg8 (by decide)).trans ((W3_keeps_arg8 m ρ c).trans ((W2_of_ne m ρ c main_arg8 (by decide)).trans (W1_arg8 m ρ c))))
/-- `main_arg9` when region 2 has been left: regions 1 and 2 and the stretch between regions 0 and 1 leave it alone. -/
theorem W5_arg9 (c : Dev nD) : W5 m ρ c (Proc.devRef .tc main_arg9) = a9 m c :=
  (W5_of_ne m ρ c main_arg9 (by decide)).trans ((W4_of_ne m ρ c main_arg9 (by decide)).trans ((W3_keeps_arg9 m ρ c).trans ((W2_of_ne m ρ c main_arg9 (by decide)).trans (W1_arg9 m ρ c))))

/-- The second layer's weights when region 2 is entered. -/
theorem W4_arg6 (c : Dev nD) : W4 m ρ c (Proc.devRef .tc main_arg6) = a6 m c :=
  (W4_of_ne m ρ c main_arg6 (by decide)).trans ((W3_keeps_arg6 m ρ c).trans ((W2_of_ne m ρ c main_arg6 (by decide)).trans (W1_arg6 m ρ c)))

/-! ## Between regions 2 and 3: the second layer's messages gathered, scaled and added up -/

/-- If region 2 left the reference's second product, the aggregated messages are the reference's. -/
theorem W6_v64 (c : Dev nD)
    (h52 : W5 m ρ c (Proc.devRef .tc main_v52)
      = Cert.ReferenceIdeal.Read.val_main_v54 (F := Ideal) (a0 m c) (a1 m c) (a3 m c) (a4 m c) (a5 m c) (a6 m c)) :
    W6 m ρ c (Proc.devRef .tc main_v64)
      = Cert.ReferenceIdeal.Read.val_main_v66 (F := Ideal) (a0 m c) (a1 m c) (a3 m c) (a4 m c) (a5 m c) (a6 m c) := by
  show StableHlo.after hostOps3 (W5 m ρ c) (Proc.devRef .tc main_v64) = _
  unfold hostOps3
  after_results_simp
  rw [h52, W5_v10 m ρ c, W5_v13 m ρ c, W5_v36 m ρ c]
  rfl

/-- The second layer's bias laid out as one row. -/
theorem W6_v65 (c : Dev nD) :
    W6 m ρ c (Proc.devRef .tc main_v65) = shapeCast S1x128 (a7 m c) shapeCasts_S128_S1x128 := by
  show StableHlo.after hostOps3 (W5 m ρ c) (Proc.devRef .tc main_v65) = _
  unfold hostOps3
  after_results_simp
  rw [W5_arg7 m ρ c]
  rfl

theorem W6_keeps_arg2 (c : Dev nD) : W6 m ρ c (Proc.devRef .tc main_arg2) = W5 m ρ c (Proc.devRef .tc main_arg2) := by
  show StableHlo.after hostOps3 (W5 m ρ c) (Proc.devRef .tc main_arg2) = _
  unfold hostOps3
  after_results_simp
/-- Argument `main_arg2` when region 3 has been left. -/
theorem W7_arg2 (c : Dev nD) : W7 m ρ c (Proc.devRef .tc main_arg2) = a2 m c :=
  (W7_of_ne m ρ c main_arg2 (by decide)).trans ((W6_keeps_arg2 m ρ c).trans (W5_arg2 m ρ c))
theorem W6_keeps_arg8 (c : Dev nD) : W6 m ρ c (Proc.devRef .tc main_arg8) = W5 m ρ c (Proc.devRef .tc main_arg8) := by
  show StableHlo.after hostOps3 (W5 m ρ c) (Proc.devRef .tc main_arg8) = _
  unfold hostOps3
  after_results_simp
/-- Argument `main_arg8` when region 3 has been left. -/
theorem W7_arg8 (c : Dev nD) : W7 m ρ c (Proc.devRef .tc main_arg8) = a8 m c :=
  (W7_of_ne m ρ c main_arg8 (by decide)).trans ((W6_keeps_arg8 m ρ c).trans (W5_arg8 m ρ c))
theorem W6_keeps_arg9 (c : Dev nD) : W6 m ρ c (Proc.devRef .tc main_arg9) = W5 m ρ c (Proc.devRef .tc main_arg9) := by
  show StableHlo.after hostOps3 (W5 m ρ c) (Proc.devRef .tc main_arg9) = _
  unfold hostOps3
  after_results_simp
/-- Argument `main_arg9` when region 3 has been left. -/
theorem W7_arg9 (c : Dev nD) : W7 m ρ c (Proc.devRef .tc main_arg9) = a9 m c :=
  (W7_of_ne m ρ c main_arg9 (by decide)).trans ((W6_keeps_arg9 m ρ c).trans (W5_arg9 m ρ c))

/-! ## Between regions 3 and 4: the mean over each graph's nodes -/

/-- If region 3 left the reference's second layer's activations, the pooled features are the reference's. -/
theorem W8_v78 (c : Dev nD)
    (h66 : W7 m ρ c (Proc.devRef .tc main_v66)
      = Cert.ReferenceIdeal.Read.val_main_v70 (F := Ideal) (a0 m c) (a1 m c) (a3 m c) (a4 m c) (a5 m c) (a6 m c) (a7 m c)) :
    W8 m ρ c (Proc.devRef .tc main_v78)
      = Cert.ReferenceIdeal.Read.val_main_v82 (F := Ideal) (a0 m c) (a1 m c) (a2 m c) (a3 m c) (a4 m c) (a5 m c) (a6 m c) (a7 m c) := by
  show StableHlo.after hostOps4 (W7 m ρ c) (Proc.devRef .tc main_v78) = _
  unfold hostOps4
  after_results_simp
  rw [h66, W7_arg2 m ρ c]
  rfl

/-- The classifier's bias laid out as one row. -/
theorem W8_v79 (c : Dev nD) :
    W8 m ρ c (Proc.devRef .tc main_v79) = shapeCast S1x16 (a9 m c) shapeCasts_S16_S1x16 := by
  show StableHlo.after hostOps4 (W7 m ρ c) (Proc.devRef .tc main_v79) = _
  unfold hostOps4
  after_results_simp
  rw [W7_arg9 m ρ c]
  rfl

/-- The classifier's weights when region 4 is entered. -/
theorem W8_arg8 (c : Dev nD) : W8 m ρ c (Proc.devRef .tc main_arg8) = a8 m c := by
  show StableHlo.after hostOps4 (W7 m ρ c) (Proc.devRef .tc main_arg8) = _
  unfold hostOps4
  after_results_simp
  exact W7_arg8 m ρ c

end Cert.KernelIdeal.HostStages

end
-- ==== Proof.RegionNames.lean ====
/-
  Names for the arrays the five kernel regions read and write, each at its literal vector type.

  A region of the program is entered with the TensorCore's buffers at some contents `V`. Each of its input windows
  stages an array of `V`; its output window's array ends at what the grid points' write-backs leave. Here every
  such array is named at the plain type "indices of a literal shape to extended reals", so that statements about
  single entries can be written with ordinary arithmetic.
-/
import proofs.«135717_j88648124990825_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The arrays the regions read, at the entry contents `V` -/

/-- The gathered embedding rows, 100000 × 64: the first product's left factor. -/
abbrev at_v6 (c : Dev nD) : FVec Ideal S100000x64 .f32 := V c main_v6
/-- The first layer's weights, 64 × 128. -/
abbrev at_arg4 (c : Dev nD) : FVec Ideal S64x128 .f32 := V c main_arg4
/-- The first layer's aggregated messages, 100000 × 128. -/
abbrev at_v49 (c : Dev nD) : FVec Ideal S100000x128 .f32 := V c main_v49
/-- The first layer's bias as one row, 1 × 128. -/
abbrev at_v50 (c : Dev nD) : FVec Ideal S1x128 .f32 := V c main_v50
/-- The first layer's activations, 100000 × 128: the second product's left factor. -/
abbrev at_v51 (c : Dev nD) : FVec Ideal S100000x128 .f32 := V c main_v51
/-- The second layer's weights, 128 × 128. -/
abbrev at_arg6 (c : Dev nD) : FVec Ideal S128x128 .f32 := V c main_arg6
/-- The second layer's aggregated messages, 100000 × 128. -/
abbrev at_v64 (c : Dev nD) : FVec Ideal S100000x128 .f32 := V c main_v64
/-- The second layer's bias as one row, 1 × 128. -/
abbrev at_v65 (c : Dev nD) : FVec Ideal S1x128 .f32 := V c main_v65
/-- The pooled graph features, 8192 × 128: the classifier product's left factor. -/
abbrev at_v78 (c : Dev nD) : FVec Ideal S8192x128 .f32 := V c main_v78
/-- The classifier's weights, 128 × 16. -/
abbrev at_arg8 (c : Dev nD) : FVec Ideal S128x16 .f32 := V c main_arg8
/-- The classifier's bias as one row, 1 × 16. -/
abbrev at_v79 (c : Dev nD) : FVec Ideal S1x16 .f32 := V c main_v79

/-! ## The arrays the regions leave -/

/-- What region 0 (the first product, 50 row blocks of 2000) leaves in its output array. -/
abbrev out0 (c : Dev nD) : FVec Ideal S100000x128 .f32 := (dat0 (F := Ideal) V c).arrAt 2 cfg0.N
/-- What region 1 (bias and rectifier, 50 row blocks of 2000) leaves in its output array. -/
abbrev out1 (c : Dev nD) : FVec Ideal S100000x128 .f32 := (dat1 (F := Ideal) V c).arrAt 2 cfg1.N
/-- What region 2 (the second product, 50 row blocks of 2000) leaves in its output array. -/
abbrev out2 (c : Dev nD) : FVec Ideal S100000x128 .f32 := (dat2 (F := Ideal) V c).arrAt 2 cfg2.N
/-- What region 3 (bias and rectifier, 50 row blocks of 2000) leaves in its output array. -/
abbrev out3 (c : Dev nD) : FVec Ideal S100000x128 .f32 := (dat3 (F := Ideal) V c).arrAt 2 cfg3.N
/-- What region 4 (the classifier product plus bias, one block) leaves in its output array. -/
abbrev out4 (c : Dev nD) : FVec Ideal S8192x16 .f32 := (dat4 (F := Ideal) V c).arrAt 3 cfg4.N

end Cert.KernelIdeal.RegionValue

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Region0.lean ====
/-
  Region 0: a row-blocked matrix product.

  The region multiplies a 100000 × 64 left factor by a 64 × 128 right factor. Its grid has 50 points. At point t
  the left factor's window holds the block of rows 2000·t … 2000·t + 1999 (all 64 columns), the right factor's
  window holds the whole 64 × 128 array, and the output window's block is rows 2000·t … 2000·t + 1999 of the
  100000 × 128 output array (all 128 columns). Element (y, j) of a block therefore sits at (2000·t + y, j) of its
  array, and element (q, j) of the right factor's block is element (q, j) of its array.

  The body rounds both blocks to a narrower format, which changes nothing at the extended reals, and multiplies them
  into an all-zero accumulator; so at (y, j) of the output block it leaves

      ∑ q < 64, x (2000·t + y, q) · w (q, j),

  where x and w are the two factor arrays as the region finds them. The whole 100000 × 64 by 64 × 128 product at
  (r, j) is ∑ q < 64, x (r, q) · w (q, j): the same sum at r = 2000·t + y. Output row r lies in the block of point
  r / 2000, at row r % 2000 of it, so the 50 blocks cover the output array, and after the region the output array is
  the whole product. An output entry (r, j) depends on row r of the left factor and column j of the right factor only.
-/
import proofs.«135717_j88648124990825_1_alg».proof.Proof.RegionNames
import proofs.«135717_j88648124990825_1_alg».proof.Proof.LibDotPlain

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's value at an entry -/

/-- The body's stored value at entry (p, q) of the output block, from a 2000 × 64 block `x0` and a 64 × 128 block
    `x1`: the sum over k of x0 (p, k) · x1 (k, q). The shape cast to the same shape and the two roundings are the
    identity at the extended reals, and the product is accumulated into the zero constant. -/
theorem pay0_apply (x0 : Vec Ideal S2000x64 .f32) (x1 : Vec Ideal S64x128 .f32) (p : Fin 2000) (q : Fin 128) :
    k0_pay1 (F := Ideal) x0 x1 (ix2 p q) = ∑ k : Fin 64, x0 (ix2 p k) * x1 (ix2 k q) := by
  unfold k0_pay1
  rw [shapeCast_self]
  exact Cert.LibDotPlain.matmul_zero_plain 2000 64 128 none (truncf .bf16 x0 bitsLt_bf16_f32) (truncf .bf16 x1 bitsLt_bf16_f32) p q

/-! ## From the blocks to the array -/

/-- The body's loads and its store start at row 0 and column 0 of their buffers. -/
theorem zeroOffsets0 : (![0, 0] : Fin 2 → Nat) = fun _ => 0 := funext fun a => by fin_cases a <;> rfl

/-- The whole 100000 × 64 by 64 × 128 product of the two factor arrays as the region finds them. -/
abbrev prod0 (c : Dev nD) : FVec Ideal S100000x128 .f32 :=
  Host.dotGeneral (F := Ideal) (φ₁ := .f32) (φ₂ := .f32) (DotDims.plain 100000 64 128) none (at_v6 V c) (at_arg4 V c)

/-- The block indices at grid point t, for each of the 50 points: the left factor's window and the output window are
    at block row t and block column 0; the right factor's window is at block (0, 0), its whole array. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back to the output array is block t of the whole product: entry (p, q) of the output block
    is the sum over k of the left block's (p, k) times the right block's (k, q); the left block's (p, k) is the left
    factor at (2000·t + p, k), the right block's (k, q) is the right factor at (k, q), and the output block's (p, q)
    sits at (2000·t + p, q) of the output array, where the whole product is the same sum. -/
theorem flushed0 (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero zeroOffsets0]
  simp only [View.ld_unit_zero (S := S2000x64) zeroOffsets0, View.ld_unit_zero (S := S64x128) zeroOffsets0]
  obtain ⟨e00, e01, e10, e11, e20, e21⟩ := blockIndices0 t
  have ht : t.val < 50 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  show k0_pay1 (iblk0 V c 0 t) (iblk0 V c 1 t) (ix2 p q) = prod0 V c (((cfg0.win 2).blk t).view.emb (ix2 p q))
  -- where entry (p, q) of the output block sits in the output array
  have hout : ((cfg0.win 2).blk t).view.emb (ix2 p q) = ix2 (⟨t.val * 2000 + p.val, by omega⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  rw [hout]
  refine (pay0_apply (iblk0 V c 0 t) (iblk0 V c 1 t) p q).trans ?_
  refine Eq.trans ?_ (Cert.LibDotPlain.dotGeneral_plain 100000 64 128 none .single (at_v6 V c) (at_arg4 V c) ⟨t.val * 2000 + p.val, by omega⟩ q).symm
  refine Finset.sum_congr rfl fun k _ => ?_
  have hk : k.val < 64 := k.isLt
  -- entry (p, k) of the left block is the left factor at (2000·t + p, k)
  have hl : iblk0 V c 0 t (ix2 p k) = at_v6 V c (ix2 (⟨t.val * 2000 + p.val, by omega⟩ : Fin 100000) k) := by
    show V c main_v6 (((cfg0.win 0).blk t).view.emb (ix2 p k)) = V c main_v6 _
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  -- entry (k, q) of the right block is the right factor at (k, q)
  have hr : iblk0 V c 1 t (ix2 k q) = at_arg4 V c (ix2 k q) := by
    show V c main_arg4 (((cfg0.win 1).blk t).view.emb (ix2 k q)) = V c main_arg4 _
    refine congrArg _ ?_
    funext a; apply Fin.ext
    match a with
    | ⟨0, _⟩ => show win0_1.index t (0 : Fin 2) * 64 + 1 * k.val = k.val; omega
    | ⟨1, _⟩ => show win0_1.index t (1 : Fin 2) * 128 + 1 * q.val = q.val; omega
  rw [hl, hr]

/-- An index of the output array is in point t's block iff each coordinate is in the block's range on its axis:
    from the block index times the block's size, for the block's size. -/
theorem mem_block0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v37).slice (win0_2.rect t)).set ↔ _
  rw [View.set_slice_whole, Rect.mem_set_unit]
  exact Iff.rfl

/-- Every index (r, j) of the output array lies in the block of the point r / 2000, which writes its block back:
    2000 · (r / 2000) ≤ r < 2000 · (r / 2000) + 2000, and the block has all 128 columns. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 2000 < 50 := by omega
  refine ⟨⟨(i 0).val / 2000, hlt⟩, flush0_2 _, ?_⟩
  obtain ⟨-, -, -, -, e20, e21⟩ := blockIndices0 ⟨(i 0).val / 2000, hlt⟩
  have e20' : win0_2.index ⟨(i 0).val / 2000, hlt⟩ (0 : Fin 2) = (i 0).val / 2000 := e20
  rw [mem_block0]
  intro a
  match a with
  | ⟨0, _⟩ => show win0_2.index ⟨(i 0).val / 2000, hlt⟩ (0 : Fin 2) * 2000 ≤ (i 0).val ∧ (i 0).val < win0_2.index ⟨(i 0).val / 2000, hlt⟩ (0 : Fin 2) * 2000 + 2000; omega
  | ⟨1, _⟩ => show win0_2.index ⟨(i 0).val / 2000, hlt⟩ (1 : Fin 2) * 128 ≤ (i 1).val ∧ (i 1).val < win0_2.index ⟨(i 0).val / 2000, hlt⟩ (1 : Fin 2) * 128 + 128; omega

/-! ## The array the region leaves -/

/-- After region 0 its output array holds the whole 100000 × 64 by 64 × 128 product of the two factor arrays the
    region found: every point writes back its block of the product, and the blocks cover the array. -/
theorem arr0 (c : Dev nD) :
    out0 V c = Host.dotGeneral (F := Ideal) (φ₁ := .f32) (φ₂ := .f32) (DotDims.plain 100000 64 128) none (at_v6 V c) (at_arg4 V c) :=
  (dat0 (F := Ideal) V c).arrAt_eq_of_cover 2 (prod0 V c) (fun t _ => flushed0 V c t) covered0

end Cert.KernelIdeal.RegionValue

end
-- ==== Proof.Region1.lean ====
/-
  Region 1: the bias row added to every row of a 100000 × 128 array, then the maximum with zero.

  The region's grid has 50 points. At point t the first input window holds rows 2000·t … 2000·t + 1999 of the array of
  aggregated messages x, the second input window holds the whole 1 × 128 bias row b (the same block at every point), and
  the body leaves, at entry (y, j) of the output window's block,

      max (x (2000·t + y, j) + b (0, j)) 0.

  The output window writes that block back over rows 2000·t … 2000·t + 1999 of the output array. The 50 blocks tile the
  array: row r lies in the block of point r / 2000 and in no other, at row r % 2000 of it. So the output array's entry
  (r, j) depends on entry (r, j) of x and entry (0, j) of b only:

      out (r, j) = max (x (r, j) + b (0, j)) 0.
-/
import proofs.«135717_j88648124990825_1_alg».proof.Proof.RegionNames

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The function the region computes, and the body's payload at an entry -/

/-- The offsets of the body's whole-block accesses are zero on both axes. -/
theorem offsets_zero1 : (![0, 0] : Fin 2 → Nat) = fun _ => 0 := funext fun a => by fin_cases a <;> rfl

/-- The whole-array function of region 1: entry (r, j) is the maximum of zero and the sum of entry (r, j) of the
    messages `a` and entry (0, j) of the bias row `b`. -/
abbrev biasRelu1 (a : FVec Ideal S100000x128 .f32) (b : FVec Ideal S1x128 .f32) : FVec Ideal S100000x128 .f32 :=
  fun i => FloatOps.maximumf (FloatOps.addf (a i) (b (ix2 (0 : Fin 1) (⟨(i 1).val, idx2_lt1 i⟩ : Fin 128))))
    (FloatOps.ofBits .f32 0x00000000#32)

/-- The body's payload at entry (p, q) of a block: the maximum of zero and the sum of the message block's entry (p, q)
    and the bias row's entry (0, q). The two shape casts are to the same shape; the broadcast down the rows reads row 0
    of its one-row operand; addition, the splat zero and the maximum act entry by entry. -/
theorem pay1_apply (x0 : Vec Ideal S2000x128 .f32) (x1 : Vec Ideal S1x128 .f32) (p : Fin 2000) (q : Fin 128) :
    k1_pay1 x0 x1 (ix2 p q)
      = FloatOps.maximumf (FloatOps.addf (x0 (ix2 p q)) (x1 (ix2 (0 : Fin 1) q))) (FloatOps.ofBits .f32 0x00000000#32) := by
  unfold k1_pay1
  show FloatOps.maximumf (F := Ideal) (FloatOps.addf (F := Ideal)
        (shapeCast S2000x128 (x0 : FVec Ideal S2000x128 .f32) shapeCasts_S2000x128_S2000x128 (ix2 p q))
        (broadcastTo S2000x128 (shapeCast S1x128 (x1 : FVec Ideal S1x128 .f32) shapeCasts_S1x128_S1x128)
          broadcasts_S1x128_S2000x128 (ix2 p q)))
      (FloatOps.ofBits (F := Ideal) .f32 0x00000000#32) = _
  rw [shapeCast_self, shapeCast_self,
    broadcastTo_apply (x1 : FVec Ideal S1x128 .f32) broadcasts_S1x128_S2000x128 (ix2 p q) (ix2 (0 : Fin 1) q)
      (fun a => by match a with | ⟨0, _⟩ => rfl | ⟨1, _⟩ => rfl)]

/-! ## From the blocks to the array -/

/-- The three windows' block indices, decided over the 50 grid points: at point `t` the message window and the output
    window are both at block row `t`, block column 0, and the bias window is at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu1` of the two arrays the region reads: the body's one store
    covers the whole staging buffer, its payload at (p, q) reads the message block and the bias block at (p, q) and
    (0, q), and those sit in their arrays at rows 2000·t + p and 0, column q — where the output block's entry (p, q) sits
    in the output array. -/
theorem flushed1_eq (c : Dev nD) (t : Fin cfg1.N) :
    (dat1 (F := Ideal) V c).flushed 2 t
      = ((cfg1.win 2).blk t).view.read (Elt Ideal) (biasRelu1 (at_v49 V c) (at_v50 V c)) := by
  show (cfg1.win 2).cut (grid1.coords t) ((dat1 (F := Ideal) V c).after 2 t) = _
  rw [after1_2]
  unfold out1_2
  rw [View.canon_unit_zero offsets_zero1]
  simp only [View.ld_unit_zero (S := S2000x128) offsets_zero1, View.ld_unit_zero (S := S1x128) offsets_zero1]
  obtain ⟨e0, e1, e2, e3, e4, e5⟩ := idx_facts1 t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q)
      = biasRelu1 (at_v49 V c) (at_v50 V c) (((cfg1.win 2).blk t).view.emb (ix2 p q))
  rw [pay1_apply]
  show FloatOps.maximumf (F := Ideal) (FloatOps.addf (F := Ideal) (V c main_v49 (((cfg1.win 0).blk t).view.emb (ix2 p q)))
        (V c main_v50 (((cfg1.win 1).blk t).view.emb (ix2 (0 : Fin 1) q)))) (FloatOps.ofBits (F := Ideal) .f32 0x00000000#32)
      = FloatOps.maximumf (F := Ideal) (FloatOps.addf (F := Ideal) (V c main_v49 (((cfg1.win 2).blk t).view.emb (ix2 p q)))
        (V c main_v50 (ix2 (0 : Fin 1) (⟨(((cfg1.win 2).blk t).view.emb (ix2 p q) 1).val, idx2_lt1 _⟩ : Fin 128))))
        (FloatOps.ofBits (F := Ideal) .f32 0x00000000#32)
  have h0 : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨(((cfg1.win 2).blk t).view.emb (ix2 p q) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the output array is in point `t`'s block iff, on each axis, its coordinate lies in the block's range:
    from the block index times the block's extent, for the block's extent. -/
theorem mem_blk1 (t : Fin cfg1.N) (i : S100000x128.Idx) :
    i ∈ ((cfg1.win 2).blk t).view.set
      ↔ ∀ a : Fin 2, win1_2.index t a * S2000x128.size a ≤ (i a).val
          ∧ (i a).val < win1_2.index t a * S2000x128.size a + S2000x128.size a := by
  show i ∈ ((View.whole main_v51).slice (win1_2.rect t)).set ↔ _
  rw [View.set_slice_whole, Rect.mem_set_unit]
  exact Iff.rfl

/-- Every index of the output array is in the block of a point that writes back: row r is in the block of point
    r / 2000, since 2000·(r / 2000) ≤ r < 2000·(r / 2000) + 2000, and every column is in block column 0. -/
theorem covered1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have ht : (i 0).val / 2000 < cfg1.N := by show (i 0).val / 2000 < 50; omega
  have f0 : win1_2.index ⟨(i 0).val / 2000, ht⟩ (0 : Fin 2) = (i 0).val / 2000 := (idx_facts1 ⟨_, ht⟩).2.2.2.2.1
  have f1 : win1_2.index ⟨(i 0).val / 2000, ht⟩ (1 : Fin 2) = 0 := (idx_facts1 ⟨_, ht⟩).2.2.2.2.2
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 128 ≤ (i 1).val
      ∧ (i 1).val < win1_2.index ⟨(i 0).val / 2000, ht⟩ (1 : Fin 2) * 128 + 128
    omega

/-- The array region 1 leaves is `biasRelu1` of the two arrays it reads: every point writes its block of that function
    back, and the blocks cover the array. -/
theorem arr1_eq (c : Dev nD) : out1 V c = biasRelu1 (at_v49 V c) (at_v50 V c) :=
  (dat1 (F := Ideal) V c).arrAt_eq_of_cover 2 _ (fun t _ => flushed1_eq V c t) covered1

/-- Entry (p, q) of the array region 1 leaves: the maximum of zero and the sum of entry (p, q) of the aggregated messages
    and entry (0, q) of the bias row. -/
theorem arr1_apply (c : Dev nD) (p : Fin 100000) (q : Fin 128) :
    out1 V c (ix2 p q)
      = FloatOps.maximumf (FloatOps.addf (at_v49 V c (ix2 p q)) (at_v50 V c (ix2 (0 : Fin 1) q)))
          (FloatOps.ofBits .f32 0x00000000#32) :=
  congrFun (arr1_eq V c) (ix2 p q)

end Cert.KernelIdeal.RegionValue

end
-- ==== Proof.Region2.lean ====
/-
  Region 2: a row-blocked matrix product.

  The region multiplies a 100000 × 128 left factor by a 128 × 128 right factor. Its grid has 50 points. At point t
  the left factor's window holds the block of rows 2000·t … 2000·t + 1999 (all 128 columns), the right factor's
  window holds the whole 128 × 128 array, and the output window's block is rows 2000·t … 2000·t + 1999 of the
  100000 × 128 output array (all 128 columns). Element (y, j) of a block therefore sits at (2000·t + y, j) of its
  array, and element (q, j) of the right factor's block is element (q, j) of its array.

  The body rounds both blocks to a narrower format, which changes nothing at the extended reals, and multiplies them
  into an all-zero accumulator; so at (y, j) of the output block it leaves

      ∑ q < 128, x (2000·t + y, q) · w (q, j),

  where x and w are the two factor arrays as the region finds them. The whole 100000 × 128 by 128 × 128 product at
  (r, j) is ∑ q < 128, x (r, q) · w (q, j): the same sum at r = 2000·t + y. Output row r lies in the block of point
  r / 2000, at row r % 2000 of it, so the 50 blocks cover the output array, and after the region the output array is
  the whole product. An output entry (r, j) depends on row r of the left factor and column j of the right factor only.
-/
import proofs.«135717_j88648124990825_1_alg».proof.Proof.RegionNames
import proofs.«135717_j88648124990825_1_alg».proof.Proof.LibDotPlain

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's value at an entry -/

/-- The body's stored value at entry (p, q) of the output block, from a 2000 × 128 block `x0` and a 128 × 128 block
    `x1`: the sum over k of x0 (p, k) · x1 (k, q). The shape cast to the same shape and the two roundings are the
    identity at the extended reals, and the product is accumulated into the zero constant. -/
theorem pay2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  exact Cert.LibDotPlain.matmul_zero_plain 2000 128 128 none (truncf .bf16 x0 bitsLt_bf16_f32) (truncf .bf16 x1 bitsLt_bf16_f32) p q

/-! ## From the blocks to the array -/

/-- The body's loads and its store start at row 0 and column 0 of their buffers. -/
theorem zeroOffsets2 : (![0, 0] : Fin 2 → Nat) = fun _ => 0 := funext fun a => by fin_cases a <;> rfl

/-- The whole 100000 × 128 by 128 × 128 product of the two factor arrays as the region finds them. -/
abbrev prod2 (c : Dev nD) : FVec Ideal S100000x128 .f32 :=
  Host.dotGeneral (F := Ideal) (φ₁ := .f32) (φ₂ := .f32) (DotDims.plain 100000 128 128) none (at_v51 V c) (at_arg6 V c)

/-- The block indices at grid point t, for each of the 50 points: the left factor's window and the output window are
    at block row t and block column 0; the right factor's window is at block (0, 0), its whole array. -/
theorem blockIndices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back to the output array is block t of the whole product: entry (p, q) of the output block
    is the sum over k of the left block's (p, k) times the right block's (k, q); the left block's (p, k) is the left
    factor at (2000·t + p, k), the right block's (k, q) is the right factor at (k, q), and the output block's (p, q)
    sits at (2000·t + p, q) of the output array, where the whole product is the same sum. -/
theorem flushed2 (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero zeroOffsets2]
  simp only [View.ld_unit_zero (S := S2000x128) zeroOffsets2, View.ld_unit_zero (S := S128x128) zeroOffsets2]
  obtain ⟨e00, e01, e10, e11, e20, e21⟩ := blockIndices2 t
  have ht : t.val < 50 := t.isLt
  funext j
  obtain ⟨p, q, rfl⟩ : ∃ (p : Fin 2000) (q : Fin 128), j = ix2 p q := ⟨j 0, j 1, eq_ix2 j⟩
  have hp : p.val < 2000 := p.isLt
  have hq : q.val < 128 := q.isLt
  show k2_pay1 (iblk2 V c 0 t) (iblk2 V c 1 t) (ix2 p q) = prod2 V c (((cfg2.win 2).blk t).view.emb (ix2 p q))
  -- where entry (p, q) of the output block sits in the output array
  have hout : ((cfg2.win 2).blk t).view.emb (ix2 p q) = ix2 (⟨t.val * 2000 + p.val, by omega⟩ : Fin 100000) q := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  rw [hout]
  refine (pay2_apply (iblk2 V c 0 t) (iblk2 V c 1 t) p q).trans ?_
  refine Eq.trans ?_ (Cert.LibDotPlain.dotGeneral_plain 100000 128 128 none .single (at_v51 V c) (at_arg6 V c) ⟨t.val * 2000 + p.val, by omega⟩ q).symm
  refine Finset.sum_congr rfl fun k _ => ?_
  have hk : k.val < 128 := k.isLt
  -- entry (p, k) of the left block is the left factor at (2000·t + p, k)
  have hl : iblk2 V c 0 t (ix2 p k) = at_v51 V c (ix2 (⟨t.val * 2000 + p.val, by omega⟩ : Fin 100000) k) := by
    show V c main_v51 (((cfg2.win 0).blk t).view.emb (ix2 p k)) = V c main_v51 _
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 128 + 1 * k.val = k.val; omega
  -- entry (k, q) of the right block is the right factor at (k, q)
  have hr : iblk2 V c 1 t (ix2 k q) = at_arg6 V c (ix2 k q) := by
    show V c main_arg6 (((cfg2.win 1).blk t).view.emb (ix2 k q)) = V c main_arg6 _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  rw [hl, hr]

/-- An index of the output array is in point t's block iff each coordinate is in the block's range on its axis:
    from the block index times the block's size, for the block's size. -/
theorem mem_block2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v52).slice (win2_2.rect t)).set ↔ _
  rw [View.set_slice_whole, Rect.mem_set_unit]
  exact Iff.rfl

/-- Every index (r, j) of the output array lies in the block of the point r / 2000, which writes its block back:
    2000 · (r / 2000) ≤ r < 2000 · (r / 2000) + 2000, and the block has all 128 columns. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hlt : (i 0).val / 2000 < 50 := by omega
  refine ⟨⟨(i 0).val / 2000, hlt⟩, flush2_2 _, ?_⟩
  obtain ⟨-, -, -, -, e20, e21⟩ := blockIndices2 ⟨(i 0).val / 2000, hlt⟩
  have e20' : win2_2.index ⟨(i 0).val / 2000, hlt⟩ (0 : Fin 2) = (i 0).val / 2000 := e20
  rw [mem_block2]
  intro a
  match a with
  | ⟨0, _⟩ => show win2_2.index ⟨(i 0).val / 2000, hlt⟩ (0 : Fin 2) * 2000 ≤ (i 0).val ∧ (i 0).val < win2_2.index ⟨(i 0).val / 2000, hlt⟩ (0 : Fin 2) * 2000 + 2000; omega
  | ⟨1, _⟩ => show win2_2.index ⟨(i 0).val / 2000, hlt⟩ (1 : Fin 2) * 128 ≤ (i 1).val ∧ (i 1).val < win2_2.index ⟨(i 0).val / 2000, hlt⟩ (1 : Fin 2) * 128 + 128; omega

/-! ## The array the region leaves -/

/-- After region 2 its output array holds the whole 100000 × 128 by 128 × 128 product of the two factor arrays the
    region found: every point writes back its block of the product, and the blocks cover the array. -/
theorem arr2 (c : Dev nD) :
    out2 V c = Host.dotGeneral (F := Ideal) (φ₁ := .f32) (φ₂ := .f32) (DotDims.plain 100000 128 128) none (at_v51 V c) (at_arg6 V c) :=
  (dat2 (F := Ideal) V c).arrAt_eq_of_cover 2 (prod2 V c) (fun t _ => flushed2 V c t) covered2

end Cert.KernelIdeal.RegionValue

end
-- ==== Proof.Region3.lean ====
/-
  Region 3: the bias row added to every row of a 100000 × 128 array, then the maximum with zero.

  The region's grid has 50 points. At point t the first input window holds rows 2000·t … 2000·t + 1999 of the array of
  aggregated messages x, the second input window holds the whole 1 × 128 bias row b (the same block at every point), and
  the body leaves, at entry (y, j) of the output window's block,

      max (x (2000·t + y, j) + b (0, j)) 0.

  The output window writes that block back over rows 2000·t … 2000·t + 1999 of the output array. The 50 blocks tile the
  array: row r lies in the block of point r / 2000 and in no other, at row r % 2000 of it. So the output array's entry
  (r, j) depends on entry (r, j) of x and entry (0, j) of b only:

      out (r, j) = max (x (r, j) + b (0, j)) 0.
-/
import proofs.«135717_j88648124990825_1_alg».proof.Proof.RegionNames

set_option maxRecDepth 16384

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The function the region computes, and the body's payload at an entry -/

/-- The offsets of the body's whole-block accesses are zero on both axes. -/
theorem offsets_zero3 : (![0, 0] : Fin 2 → Nat) = fun _ => 0 := funext fun a => by fin_cases a <;> rfl

/-- The whole-array function of region 3: entry (r, j) is the maximum of zero and the sum of entry (r, j) of the
    messages `a` and entry (0, j) of the bias row `b`. -/
abbrev biasRelu3 (a : FVec Ideal S100000x128 .f32) (b : FVec Ideal S1x128 .f32) : FVec Ideal S100000x128 .f32 :=
  fun i => FloatOps.maximumf (FloatOps.addf (a i) (b (ix2 (0 : Fin 1) (⟨(i 1).val, idx2_lt1 i⟩ : Fin 128))))
    (FloatOps.ofBits .f32 0x00000000#32)

/-- The body's payload at entry (p, q) of a block: the maximum of zero and the sum of the message block's entry (p, q)
    and the bias row's entry (0, q). The two shape casts are to the same shape; the broadcast down the rows reads row 0
    of its one-row operand; addition, the splat zero and the maximum act entry by entry. -/
theorem pay3_apply (x0 : Vec Ideal S2000x128 .f32) (x1 : Vec Ideal S1x128 .f32) (p : Fin 2000) (q : Fin 128) :
    k3_pay1 x0 x1 (ix2 p q)
      = FloatOps.maximumf (FloatOps.addf (x0 (ix2 p q)) (x1 (ix2 (0 : Fin 1) q))) (FloatOps.ofBits .f32 0x00000000#32) := by
  unfold k3_pay1
  show FloatOps.maximumf (F := Ideal) (FloatOps.addf (F := Ideal)
        (shapeCast S2000x128 (x0 : FVec Ideal S2000x128 .f32) shapeCasts_S2000x128_S2000x128 (ix2 p q))
        (broadcastTo S2000x128 (shapeCast S1x128 (x1 : FVec Ideal S1x128 .f32) shapeCasts_S1x128_S1x128)
          broadcasts_S1x128_S2000x128 (ix2 p q)))
      (FloatOps.ofBits (F := Ideal) .f32 0x00000000#32) = _
  rw [shapeCast_self, shapeCast_self,
    broadcastTo_apply (x1 : FVec Ideal S1x128 .f32) broadcasts_S1x128_S2000x128 (ix2 p q) (ix2 (0 : Fin 1) q)
      (fun a => by match a with | ⟨0, _⟩ => rfl | ⟨1, _⟩ => rfl)]

/-! ## From the blocks to the array -/

/-- The three windows' block indices, decided over the 50 grid points: at point `t` the message window and the output
    window are both at block row `t`, block column 0, and the bias window is at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu3` of the two arrays the region reads: the body's one store
    covers the whole staging buffer, its payload at (p, q) reads the message block and the bias block at (p, q) and
    (0, q), and those sit in their arrays at rows 2000·t + p and 0, column q — where the output block's entry (p, q) sits
    in the output array. -/
theorem flushed3_eq (c : Dev nD) (t : Fin cfg3.N) :
    (dat3 (F := Ideal) V c).flushed 2 t
      = ((cfg3.win 2).blk t).view.read (Elt Ideal) (biasRelu3 (at_v64 V c) (at_v65 V c)) := by
  show (cfg3.win 2).cut (grid3.coords t) ((dat3 (F := Ideal) V c).after 2 t) = _
  rw [after3_2]
  unfold out3_2
  rw [View.canon_unit_zero offsets_zero3]
  simp only [View.ld_unit_zero (S := S2000x128) offsets_zero3, View.ld_unit_zero (S := S1x128) offsets_zero3]
  obtain ⟨e0, e1, e2, e3, e4, e5⟩ := idx_facts3 t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q)
      = biasRelu3 (at_v64 V c) (at_v65 V c) (((cfg3.win 2).blk t).view.emb (ix2 p q))
  rw [pay3_apply]
  show FloatOps.maximumf (F := Ideal) (FloatOps.addf (F := Ideal) (V c main_v64 (((cfg3.win 0).blk t).view.emb (ix2 p q)))
        (V c main_v65 (((cfg3.win 1).blk t).view.emb (ix2 (0 : Fin 1) q)))) (FloatOps.ofBits (F := Ideal) .f32 0x00000000#32)
      = FloatOps.maximumf (F := Ideal) (FloatOps.addf (F := Ideal) (V c main_v64 (((cfg3.win 2).blk t).view.emb (ix2 p q)))
        (V c main_v65 (ix2 (0 : Fin 1) (⟨(((cfg3.win 2).blk t).view.emb (ix2 p q) 1).val, idx2_lt1 _⟩ : Fin 128))))
        (FloatOps.ofBits (F := Ideal) .f32 0x00000000#32)
  have h0 : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) (⟨(((cfg3.win 2).blk t).view.emb (ix2 p q) 1).val, idx2_lt1 _⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]

/-- An index of the output array is in point `t`'s block iff, on each axis, its coordinate lies in the block's range:
    from the block index times the block's extent, for the block's extent. -/
theorem mem_blk3 (t : Fin cfg3.N) (i : S100000x128.Idx) :
    i ∈ ((cfg3.win 2).blk t).view.set
      ↔ ∀ a : Fin 2, win3_2.index t a * S2000x128.size a ≤ (i a).val
          ∧ (i a).val < win3_2.index t a * S2000x128.size a + S2000x128.size a := by
  show i ∈ ((View.whole main_v66).slice (win3_2.rect t)).set ↔ _
  rw [View.set_slice_whole, Rect.mem_set_unit]
  exact Iff.rfl

/-- Every index of the output array is in the block of a point that writes back: row r is in the block of point
    r / 2000, since 2000·(r / 2000) ≤ r < 2000·(r / 2000) + 2000, and every column is in block column 0. -/
theorem covered3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have ht : (i 0).val / 2000 < cfg3.N := by show (i 0).val / 2000 < 50; omega
  have f0 : win3_2.index ⟨(i 0).val / 2000, ht⟩ (0 : Fin 2) = (i 0).val / 2000 := (idx_facts3 ⟨_, ht⟩).2.2.2.2.1
  have f1 : win3_2.index ⟨(i 0).val / 2000, ht⟩ (1 : Fin 2) = 0 := (idx_facts3 ⟨_, ht⟩).2.2.2.2.2
  refine ⟨⟨(i 0).val / 2000, ht⟩, flush3_2 _, ?_⟩
  rw [mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    omega
  | ⟨1, _⟩ =>
    show win3_2.index ⟨(i 0).val / 2000, ht⟩ (1 : Fin 2) * 128 ≤ (i 1).val
      ∧ (i 1).val < win3_2.index ⟨(i 0).val / 2000, ht⟩ (1 : Fin 2) * 128 + 128
    omega

/-- The array region 3 leaves is `biasRelu3` of the two arrays it reads: every point writes its block of that function
    back, and the blocks cover the array. -/
theorem arr3_eq (c : Dev nD) : out3 V c = biasRelu3 (at_v64 V c) (at_v65 V c) :=
  (dat3 (F := Ideal) V c).arrAt_eq_of_cover 2 _ (fun t _ => flushed3_eq V c t) covered3

/-- Entry (p, q) of the array region 3 leaves: the maximum of zero and the sum of entry (p, q) of the aggregated messages
    and entry (0, q) of the bias row. -/
theorem arr3_apply (c : Dev nD) (p : Fin 100000) (q : Fin 128) :
    out3 V c (ix2 p q)
      = FloatOps.maximumf (FloatOps.addf (at_v64 V c (ix2 p q)) (at_v65 V c (ix2 (0 : Fin 1) q)))
          (FloatOps.ofBits .f32 0x00000000#32) :=
  congrFun (arr3_eq V c) (ix2 p q)

end Cert.KernelIdeal.RegionValue

end
-- ==== Proof.Region4.lean ====
/-
  Region 4, the classifier: what its output array holds, entry by entry.

  The region has a single grid point. Each of its four windows has one block, and that block is the whole array: the
  8192 × 128 pooled features x, the 128 × 16 weights w, the 1 × 16 bias row b, and the 8192 × 16 output. At its one
  point the body loads the three input blocks, multiplies x by w into an all-zero accumulator, adds the bias row
  broadcast down the 8192 rows, and stores the result over the whole output block. At the ideal values the casts to
  the narrower format are the identity, so the stored block at (p, q) is

      (∑ k : Fin 128, x (p, k) · w (k, q)) + b (0, q).

  Output entry (p, q) therefore depends on row p of x, column q of w and entry (0, q) of b, and on nothing else. The
  one block covers every index of the output array, so the array the region leaves is this function at every entry.
  The host's product of x and w at (p, q) is the same sum over k, which gives the statement in the host's terms.
-/
import proofs.«135717_j88648124990825_1_alg».proof.Proof.RegionNames
import proofs.«135717_j88648124990825_1_alg».proof.Proof.LibDotPlain
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body's stored value at an entry -/

/-- The body's product contracts the left factor's axis 1 with the right factor's axis 0 and has no batch axis: its
    dimension numbers are those of the plain 8192 × 128 by 128 × 16 product. -/
theorem classifier_dims_plain :
    dot_S8192x128_S128x16_S8192x16_1_0_0_1_n_n = DotDims.plain 8192 128 16 := rfl

/-- The 1 × 16 bias row broadcast to 8192 × 16, read at (p, q), is the row's entry (0, q): the row axis of the
    operand has extent one, the column axis is kept. -/
theorem classifier_bias_row_apply (b : FVec Ideal S1x16 .f32) (p : Fin 8192) (q : Fin 16) :
    broadcastTo S8192x16 b broadcasts_S1x16_S8192x16 (ix2 p q) = b (ix2 (0 : Fin 1) q) := by
  refine broadcastTo_apply b broadcasts_S1x16_S8192x16 (ix2 p q) (ix2 (0 : Fin 1) q) ?_
  intro a
  match a with
  | ⟨0, _⟩ => rfl
  | ⟨1, _⟩ => rfl

/-- The value the body stores, from the three loaded blocks x0, x1, x2 and at entry (p, q):
    (∑ k, x0 (p, k) · x1 (k, q)) + x2 (0, q). The reshapes keep the shape, the narrowing casts are the identity at the
    ideal values, and the accumulator is the all-zero array. -/
theorem classifier_payload_apply (x0 : Vec Ideal S8192x128 .f32) (x1 : Vec Ideal S128x16 .f32)
    (x2 : Vec Ideal S1x16 .f32) (p : Fin 8192) (q : Fin 16) :
    k4_pay1 (F := Ideal) x0 x1 x2 (ix2 p q)
      = (∑ k : Fin 128, x0 (ix2 p k) * x1 (ix2 k q)) + x2 (ix2 (0 : Fin 1) q) := by
  unfold k4_pay1
  rw [shapeCast_self, shapeCast_self, addf_apply, classifier_bias_row_apply, classifier_dims_plain]
  exact congrArg (· + x2 (ix2 (0 : Fin 1) q))
    (Cert.LibDotPlain.matmul_zero_plain 8192 128 16 none _ _ p q)

/-! ## Every window's one block is its whole array -/

/-- The two zero offsets of a whole-block access, as the constant-zero function. -/
theorem classifier_zero_offsets : (![0, 0] : Fin 2 → Nat) = fun _ => 0 := funext fun a => by fin_cases a <;> rfl

/-- At the region's one grid point every window's block index is 0 on both axes. -/
theorem classifier_block_index_facts : ∀ t : Fin cfg4.N, win4_0.index t (0 : Fin 2) = 0
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0 :=
  (by decide +kernel : ∀ t : Fin grid4.N, _)

/-- The left factor's block is the whole 8192 × 128 array of pooled features: the block sits at offset
    0 · 8192 and 0 · 128, so its entry (j₀, j₁) is the array's entry (j₀, j₁). -/
theorem classifier_left_block_eq (c : Dev nD) (t : Fin cfg4.N) : iblk4 (F := Ideal) V c 0 t = at_v78 V c := by
  obtain ⟨e0, e1, -, -, -, -, -, -⟩ := classifier_block_index_facts t
  funext j
  show V c main_v78 (((cfg4.win 0).blk t).view.emb j) = V c main_v78 j
  refine congrArg (V c main_v78) ?_
  funext a; apply Fin.ext
  match a with
  | ⟨0, _⟩ => show win4_0.index t (0 : Fin 2) * 8192 + 1 * (j 0).val = (j 0).val; omega
  | ⟨1, _⟩ => show win4_0.index t (1 : Fin 2) * 128 + 1 * (j 1).val = (j 1).val; omega

/-- The weights' block is the whole 128 × 16 array of weights. -/
theorem classifier_weights_block_eq (c : Dev nD) (t : Fin cfg4.N) : iblk4 (F := Ideal) V c 1 t = at_arg8 V c := by
  obtain ⟨-, -, e0, e1, -, -, -, -⟩ := classifier_block_index_facts t
  funext j
  show V c main_arg8 (((cfg4.win 1).blk t).view.emb j) = V c main_arg8 j
  refine congrArg (V c main_arg8) ?_
  funext a; apply Fin.ext
  match a with
  | ⟨0, _⟩ => show win4_1.index t (0 : Fin 2) * 128 + 1 * (j 0).val = (j 0).val; omega
  | ⟨1, _⟩ => show win4_1.index t (1 : Fin 2) * 16 + 1 * (j 1).val = (j 1).val; omega

/-- The bias' block is the whole 1 × 16 bias row. -/
theorem classifier_bias_block_eq (c : Dev nD) (t : Fin cfg4.N) : iblk4 (F := Ideal) V c 2 t = at_v79 V c := by
  obtain ⟨-, -, -, -, e0, e1, -, -⟩ := classifier_block_index_facts t
  funext j
  show V c main_v79 (((cfg4.win 2).blk t).view.emb j) = V c main_v79 j
  refine congrArg (V c main_v79) ?_
  funext a; apply Fin.ext
  match a with
  | ⟨0, _⟩ => show win4_2.index t (0 : Fin 2) * 1 + 1 * (j 0).val = (j 0).val; omega
  | ⟨1, _⟩ => show win4_2.index t (1 : Fin 2) * 16 + 1 * (j 1).val = (j 1).val; omega

/-! ## From the one block to the array -/

/-- The classifier's whole output as one function of the three arrays the region reads: the body's stored value
    computed from the whole arrays, (∑ k, x (p, k) · w (k, q)) + b (0, q) at entry (p, q)
    (`classifier_payload_apply`). -/
abbrev classifierArr (c : Dev nD) : FVec Ideal S8192x16 .f32 :=
  k4_pay1 (F := Ideal) (at_v78 V c) (at_arg8 V c) (at_v79 V c)

/-- What the one grid point writes back is its block of `classifierArr`: the body's one store fills the whole
    staging block with the stored value of the three loaded blocks, each of which is its whole array, and the
    output's block sits at offset 0 · 8192 and 0 · 16 of the output array. -/
theorem classifier_written_back_eq (c : Dev nD) (t : Fin cfg4.N) :
    (dat4 (F := Ideal) V c).flushed 3 t
      = ((cfg4.win 3).blk t).view.read (Elt Ideal) (classifierArr V c) := by
  show (cfg4.win 3).cut (grid4.coords t) ((dat4 V c).after 3 t) = _
  rw [after4_3]
  unfold out4_3
  rw [View.canon_unit_zero classifier_zero_offsets]
  simp only [View.ld_unit_zero (S := S8192x128) classifier_zero_offsets, View.ld_unit_zero (S := S128x16) classifier_zero_offsets,
    View.ld_unit_zero (S := S1x16) classifier_zero_offsets]
  rw [classifier_left_block_eq, classifier_weights_block_eq, classifier_bias_block_eq]
  obtain ⟨-, -, -, -, -, -, e0, e1⟩ := classifier_block_index_facts t
  funext j
  show classifierArr V c j = classifierArr V c (((cfg4.win 3).blk t).view.emb j)
  refine congrArg (classifierArr V c) ?_
  funext a; apply Fin.ext
  match a with
  | ⟨0, _⟩ => show (j 0).val = win4_3.index t (0 : Fin 2) * 8192 + 1 * (j 0).val; omega
  | ⟨1, _⟩ => show (j 1).val = win4_3.index t (1 : Fin 2) * 16 + 1 * (j 1).val; omega

/-- An index of the output array is in the point's block iff each coordinate lies in the block's range on its axis. -/
theorem classifier_mem_out_block (t : Fin cfg4.N) (i : S8192x16.Idx) :
    i ∈ ((cfg4.win 3).blk t).view.set ↔ ∀ a : Fin 2, win4_3.index t a * S8192x16.size a ≤ (i a).val
      ∧ (i a).val < win4_3.index t a * S8192x16.size a + S8192x16.size a := by
  show i ∈ ((View.whole main_v80).slice (win4_3.rect t)).set ↔ _
  rw [View.set_slice_whole, Rect.mem_set_unit]
  exact Iff.rfl

/-- Every index of the 8192 × 16 output array is in the one point's block, which is written back: the block starts
    at (0, 0) and has the array's extents. -/
theorem classifier_out_block_covers (i : S8192x16.Idx) :
    ∃ t : Fin cfg4.N, (cfg4.win 3).flush t = true ∧ i ∈ ((cfg4.win 3).blk t).view.set := by
  refine ⟨t4_0, flush4_3 t4_0, ?_⟩
  rw [classifier_mem_out_block]
  obtain ⟨-, -, -, -, -, -, e0, e1⟩ := classifier_block_index_facts t4_0
  have h0 : (i 0).val < 8192 := idx2_lt0 i
  have h1 : (i 1).val < 16 := idx2_lt1 i
  intro a
  match a with
  | ⟨0, _⟩ =>
    show win4_3.index t4_0 (0 : Fin 2) * 8192 ≤ (i 0).val ∧ (i 0).val < win4_3.index t4_0 (0 : Fin 2) * 8192 + 8192
    omega
  | ⟨1, _⟩ =>
    show win4_3.index t4_0 (1 : Fin 2) * 16 ≤ (i 1).val ∧ (i 1).val < win4_3.index t4_0 (1 : Fin 2) * 16 + 16
    omega

/-- The array region 4 leaves is `classifierArr` of the arrays it reads: the one point writes back its block of
    it, and that block covers the array. -/
theorem out4_eq (c : Dev nD) : out4 V c = classifierArr V c :=
  (dat4 (F := Ideal) V c).arrAt_eq_of_cover 3 (classifierArr V c) (fun t _ => classifier_written_back_eq V c t)
    classifier_out_block_covers

/-- Entry (p, q) of the array region 4 leaves: the host's product of the pooled features and the classifier's
    weights at (p, q), plus the bias row's entry (0, q). Both products are ∑ k : Fin 128, x (p, k) · w (k, q). -/
theorem arr4_apply (c : Dev nD) (p : Fin 8192) (q : Fin 16) :
    out4 V c (ix2 p q)
      = FloatOps.addf
          (Host.dotGeneral (F := Ideal) (φ₁ := .f32) (φ₂ := .f32) (DotDims.plain 8192 128 16) none (at_v78 V c) (at_arg8 V c) (ix2 p q))
          (at_v79 V c (ix2 (0 : Fin 1) q)) := by
  rw [out4_eq]
  refine (classifier_payload_apply (at_v78 V c) (at_arg8 V c) (at_v79 V c) p q).trans ?_
  exact congrArg (· + at_v79 V c (ix2 (0 : Fin 1) q))
    (Cert.LibDotPlain.dotGeneral_plain 8192 128 16 none .single (at_v78 V c) (at_arg8 V c) p q).symm

end Cert.KernelIdeal.RegionValue

end
-- ==== Proof.Bridge.lean ====
/-
  Each region of the kernel program leaves the reference's stage it stands for.

  The kernel program is the reference with five stretches of host operations replaced by kernel regions: the two
  layers' products (regions 0 and 2), the two layers' bias and rectifier (regions 1 and 3), and the classifier's
  product plus bias (region 4). Going through the program in order: a region's inputs hold the reference's stages
  (by the host stretch before it, given the region before that), and the region's output, entry by entry, is the
  reference's operation of those inputs — a plain matrix product is the same sum of products on the host and in the
  kernel, and "add the bias at the column, then take the maximum with 0" is the same arithmetic entry by entry. No
  law of the extended reals is used beyond reading both sides at an entry: the two programs compute the same
  expression, arranged in blocks on one side and whole on the other.
-/
import proofs.«135717_j88648124990825_1_alg».proof.Proof.RegionNames
import proofs.«135717_j88648124990825_1_alg».proof.Proof.HostStages
import proofs.«135717_j88648124990825_1_alg».proof.Proof.Region0
import proofs.«135717_j88648124990825_1_alg».proof.Proof.Region1
import proofs.«135717_j88648124990825_1_alg».proof.Proof.Region2
import proofs.«135717_j88648124990825_1_alg».proof.Proof.Region3
import proofs.«135717_j88648124990825_1_alg».proof.Proof.Region4
import Idealize.ShloMosaic.Lib.ValueLayout

set_option maxRecDepth 16384

noncomputable section

namespace Cert.KernelIdeal.Bridge

open Cert.KernelIdeal Cert.KernelIdeal.Gen Cert.KernelIdeal.HostStages Cert.KernelIdeal.RegionValue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## A bias read at a column, in the reference's two broadcasts -/

/-- The reference lays the first layer's bias out as one row and repeats the row 100000 times: entry (p, q) of the
    result reads the bias at q. -/
theorem bias1_idx (p : Fin 100000) (q : Fin 128) :
    Cert.ReferenceIdeal.Read.idx_main_v50 (Cert.ReferenceIdeal.Read.idx_main_v51 (ix2 p q)) = ix1 q := by
  funext a; match a with | ⟨0, _⟩ => rfl

/-- The same for the second layer's bias. -/
theorem bias2_idx (p : Fin 100000) (q : Fin 128) :
    Cert.ReferenceIdeal.Read.idx_main_v67 (Cert.ReferenceIdeal.Read.idx_main_v68 (ix2 p q)) = ix1 q := by
  funext a; match a with | ⟨0, _⟩ => rfl

/-- The same for the classifier's bias of 16 entries over 8192 rows. -/
theorem bias3_idx (p : Fin 8192) (q : Fin 16) :
    Cert.ReferenceIdeal.Read.idx_main_v84 (Cert.ReferenceIdeal.Read.idx_main_v85 (ix2 p q)) = ix1 q := by
  funext a; match a with | ⟨0, _⟩ => rfl

/-! ## Region 0: the first product -/

/-- Region 0 leaves the reference's first product: the same two factors, the same plain contraction. -/
theorem W2_v37 (c : Dev nD) :
    W2 m ρ c (Proc.devRef .tc main_v37) = Cert.ReferenceIdeal.Read.val_main_v37 (F := Ideal) (a0 m c) (a3 m c) (a4 m c) := by
  refine (W2_arr m ρ c 2).trans ?_
  refine (arr0 (V1 m ρ) c).trans ?_
  have e6 : at_v6 (V1 m ρ) c = Cert.ReferenceIdeal.Read.val_main_v6 (F := Ideal) (a0 m c) (a3 m c) := W1_v6 m ρ c
  have e4 : at_arg4 (V1 m ρ) c = a4 m c := W1_arg4 m ρ c
  rw [e6, e4]
  rfl

/-! ## Region 1: bias and rectifier of the first layer -/

/-- Region 1 leaves the reference's first layer activations: at (p, q) the maximum of 0 and the aggregated message
    plus the bias at q. -/
theorem W4_v51 (c : Dev nD) :
    W4 m ρ c (Proc.devRef .tc main_v51)
      = Cert.ReferenceIdeal.Read.val_main_v53 (F := Ideal) (a0 m c) (a1 m c) (a3 m c) (a4 m c) (a5 m c) := by
  refine (W4_arr m ρ c 2).trans ?_
  funext i
  obtain ⟨p, q, rfl⟩ : ∃ (p : Fin 100000) (q : Fin 128), i = ix2 p q := ⟨i 0, i 1, eq_ix2 i⟩
  refine (arr1_apply (V3 m ρ) c p q).trans ?_
  have e49 : at_v49 (V3 m ρ) c = Cert.ReferenceIdeal.Read.val_main_v49 (F := Ideal) (a0 m c) (a1 m c) (a3 m c) (a4 m c) :=
    W3_v49 m ρ c (W2_v37 m ρ c)
  have e50 : at_v50 (V3 m ρ) c = shapeCast S1x128 (a5 m c) shapeCasts_S128_S1x128 := W3_v50 m ρ c
  rw [e49, e50, shapeCast_a_1a_apply, Cert.ReferenceIdeal.Read.val_main_v53_apply, Cert.ReferenceIdeal.Read.val_main_v52_apply, Cert.ReferenceIdeal.Read.val_main_v51_apply,
    Cert.ReferenceIdeal.Read.val_main_v50_apply, Cert.ReferenceIdeal.Read.val_main_call0_v0_apply, Cert.ReferenceIdeal.Read.val_main_call0_cst_apply, bias1_idx]

/-! ## Region 2: the second product -/

/-- Region 2 leaves the reference's second product. -/
theorem W5_v52 (c : Dev nD) :
    W5 m ρ c (Proc.devRef .tc main_v52)
      = Cert.ReferenceIdeal.Read.val_main_v54 (F := Ideal) (a0 m c) (a1 m c) (a3 m c) (a4 m c) (a5 m c) (a6 m c) := by
  refine (W5_arr m ρ c 2).trans ?_
  refine (arr2 (V4 m ρ) c).trans ?_
  have e51 : at_v51 (V4 m ρ) c = Cert.ReferenceIdeal.Read.val_main_v53 (F := Ideal) (a0 m c) (a1 m c) (a3 m c) (a4 m c) (a5 m c) :=
    W4_v51 m ρ c
  have e6 : at_arg6 (V4 m ρ) c = a6 m c := W4_arg6 m ρ c
  rw [e51, e6]
  rfl

/-! ## Region 3: bias and rectifier of the second layer -/

/-- Region 3 leaves the reference's second layer activations. -/
theorem W7_v66 (c : Dev nD) :
    W7 m ρ c (Proc.devRef .tc main_v66)
      = Cert.ReferenceIdeal.Read.val_main_v70 (F := Ideal) (a0 m c) (a1 m c) (a3 m c) (a4 m c) (a5 m c) (a6 m c) (a7 m c) := by
  refine (W7_arr m ρ c 2).trans ?_
  funext i
  obtain ⟨p, q, rfl⟩ : ∃ (p : Fin 100000) (q : Fin 128), i = ix2 p q := ⟨i 0, i 1, eq_ix2 i⟩
  refine (arr3_apply (V6 m ρ) c p q).trans ?_
  have e64 : at_v64 (V6 m ρ) c
      = Cert.ReferenceIdeal.Read.val_main_v66 (F := Ideal) (a0 m c) (a1 m c) (a3 m c) (a4 m c) (a5 m c) (a6 m c) :=
    W6_v64 m ρ c (W5_v52 m ρ c)
  have e65 : at_v65 (V6 m ρ) c = shapeCast S1x128 (a7 m c) shapeCasts_S128_S1x128 := W6_v65 m ρ c
  rw [e64, e65, shapeCast_a_1a_apply, Cert.ReferenceIdeal.Read.val_main_v70_apply, Cert.ReferenceIdeal.Read.val_main_v69_apply, Cert.ReferenceIdeal.Read.val_main_v68_apply,
    Cert.ReferenceIdeal.Read.val_main_v67_apply, Cert.ReferenceIdeal.Read.val_main_call1_v0_apply, Cert.ReferenceIdeal.Read.val_main_call1_cst_apply, bias2_idx]

/-! ## Region 4: the classifier -/

/-- Region 4 leaves the reference's result: at (p, q) the product of the pooled features and the classifier's weights
    plus the bias at q. -/
theorem W9_v80 (c : Dev nD) :
    W9 m ρ c (Proc.devRef .tc main_v80)
      = Cert.ReferenceIdeal.Read.val_main_v86 (F := Ideal) (a0 m c) (a1 m c) (a2 m c) (a3 m c) (a4 m c) (a5 m c) (a6 m c) (a7 m c)
          (a8 m c) (a9 m c) := by
  refine (W9_arr m ρ c 3).trans ?_
  funext i
  obtain ⟨p, q, rfl⟩ : ∃ (p : Fin 8192) (q : Fin 16), i = ix2 p q := ⟨i 0, i 1, eq_ix2 i⟩
  refine (arr4_apply (V8 m ρ) c p q).trans ?_
  have e78 : at_v78 (V8 m ρ) c
      = Cert.ReferenceIdeal.Read.val_main_v82 (F := Ideal) (a0 m c) (a1 m c) (a2 m c) (a3 m c) (a4 m c) (a5 m c) (a6 m c) (a7 m c) :=
    W8_v78 m ρ c (W7_v66 m ρ c)
  have e8 : at_arg8 (V8 m ρ) c = a8 m c := W8_arg8 m ρ c
  have e79 : at_v79 (V8 m ρ) c = shapeCast S1x16 (a9 m c) shapeCasts_S16_S1x16 := W8_v79 m ρ c
  rw [e78, e8, e79, shapeCast_a_1a_apply, Cert.ReferenceIdeal.Read.val_main_v86_apply, Cert.ReferenceIdeal.Read.val_main_v85_apply, Cert.ReferenceIdeal.Read.val_main_v84_apply,
    bias3_idx]
  rfl

end Cert.KernelIdeal.Bridge

end
-- ==== Proof.lean ====
/-
  The certificate of a two-layer graph convolution classifier against its jnp reference.

  Both programs compute, for node features x = embed[node_ids], the edge lists with a self loop per node, and the
  symmetric normalisation norm(e) = deg(src e)^(-1/2) · deg(dst e)^(-1/2):

      h1 = max(0, scatter-add over dst of (x · W1)[src] · norm + b1),
      h2 = max(0, scatter-add over dst of (h1 · W2)[src] · norm + b2),
      out = (per-graph sum of h2 / max(count, 1)) · Wout + bout.

  The reference does all of it with host operations. The kernel program does the gathers, scatter-adds and the mean
  with the same host operations, and does the three products, the two "add bias, clamp at 0" steps and the last
  "add bias" in five kernel regions, the first four over 50 blocks of 2000 rows, with the factors rounded to a
  narrower format before the product. At the ideal values the rounding is the identity, a block of rows of a product
  is the product of the block of rows, and adding a bias row down the rows is the same entry by entry; so every
  region leaves exactly the reference's stage (Proof/Bridge.lean over Proof/Region0 … Region4), the host stretches
  between them are the reference's own operations (Proof/HostStages.lean), and the two results are one term of the
  arguments. No precondition on the inputs is used: the two sides are equal as expressions over the extended reals,
  whatever the integer inputs index and whether or not the floats are finite.

  The frames of the two kernel programs are the generated ones; the reference's frame is its generated run with the
  result dropped; the ideal pass rewrote nothing, so there is nothing to preserve.
-/
import proofs.«135717_j88648124990825_1_alg».proof.Defs
import proofs.«135717_j88648124990825_1_alg».proof.Proof.Gen.Kernel
import proofs.«135717_j88648124990825_1_alg».proof.Proof.Gen.Kernel.Skeleton
import proofs.«135717_j88648124990825_1_alg».proof.Proof.Gen.Kernel.Launch
import proofs.«135717_j88648124990825_1_alg».proof.Proof.Gen.Kernel.Points
import proofs.«135717_j88648124990825_1_alg».proof.Proof.Gen.Kernel.Frame
import proofs.«135717_j88648124990825_1_alg».proof.Proof.Gen.KernelIdeal
import proofs.«135717_j88648124990825_1_alg».proof.Proof.Gen.KernelIdeal.Skeleton
import proofs.«135717_j88648124990825_1_alg».proof.Proof.Gen.KernelIdeal.Launch
import proofs.«135717_j88648124990825_1_alg».proof.Proof.Gen.KernelIdeal.Points
import proofs.«135717_j88648124990825_1_alg».proof.Proof.Gen.KernelIdeal.Frame
import proofs.«135717_j88648124990825_1_alg».proof.Proof.Gen.ReferenceIdeal
import proofs.«135717_j88648124990825_1_alg».proof.Proof.Gen.ReferenceIdeal.Run
import proofs.«135717_j88648124990825_1_alg».proof.Proof.Gen.ReferenceIdeal.Read
import proofs.«135717_j88648124990825_1_alg».proof.Proof.Gen.Pre_finite_inputs
import proofs.«135717_j88648124990825_1_alg».proof.Proof.HostStages
import proofs.«135717_j88648124990825_1_alg».proof.Proof.KRun
import proofs.«135717_j88648124990825_1_alg».proof.Proof.Bridge
import Idealize.ShloMosaic.Adequacy
import Idealize.ShloMosaic.Init

set_option maxRecDepth 16384

noncomputable section

namespace Cert.Proof

open Idealize.ShloMosaic Idealize.SL.Sem
open Cert.KernelIdeal.HostStages

/-- The word-level program runs, nothing faulting, its arguments unchanged: the generated frame certificate. -/
theorem frame_kernel : Cert.frame_Kernel := fun m ρ _ => Cert.Kernel.Gen.frame m ρ

/-- The idealized program runs, nothing faulting, its arguments unchanged: the generated frame certificate. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end with the reference's last stage of the (agreeing) arguments: the kernel program because each of
    its regions leaves the reference's stage it stands for and its host stretches are the reference's own operations,
    the reference by its run. -/
theorem algebraic : Cert.algebraic_KernelIdeal_ReferenceIdeal := by
  intro m ρ m' ρ' _ hagree
  refine ⟨fun c => Cert.ReferenceIdeal.Read.val_main_v86 (F := Ideal) (a0 m c) (a1 m c) (a2 m c) (a3 m c) (a4 m c)
      (a5 m c) (a6 m c) (a7 m c) (a8 m c) (a9 m c), ?_, ?_⟩
  · exact (θ_run Cert.KernelIdeal.defs _ _).mono
      (fun _ h c => ⟨((h c).1).trans (Cert.KernelIdeal.Bridge.W9_v80 m ρ c), (h c).2⟩)
      (Cert.KernelIdeal.Named.run_named (F := Ideal) m ρ)
  · refine (θ_run Cert.ReferenceIdeal.defs _ _).mono (fun _ h c => ⟨((h c).1).trans ?_, (h c).2⟩)
      (Cert.ReferenceIdeal.Value.run (F := Ideal) m' ρ')
    obtain ⟨h0, h1, h2, h3, h4, h5, h6, h7, h8, h9⟩ := hagree c
    rw [Cert.ReferenceIdeal.Read.val_main_v86_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
